-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S800000x16 : Shape := ⟨2, ![800000, 16]⟩
abbrev S800000x3 : Shape := ⟨2, ![800000, 3]⟩
abbrev S50000x1 : Shape := ⟨2, ![50000, 1]⟩
abbrev S800000x1 : Shape := ⟨2, ![800000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x16 : S_.BroadcastsInDim S800000x16 (![] : Fin 0 → Fin S800000x16.rank)
  reducesTo_S800000x16_S_d0_1 : S800000x16.ReducesTo [0, 1] S_
  bcast_S_S800000x3 : S_.BroadcastsInDim S800000x3 (![] : Fin 0 → Fin S800000x3.rank)
  reducesTo_S800000x3_S_d0_1 : S800000x3.ReducesTo [0, 1] S_
  bcast_S_S50000x1 : S_.BroadcastsInDim S50000x1 (![] : Fin 0 → Fin S50000x1.rank)
  reducesTo_S50000x1_S_d0_1 : S50000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S2x800000 32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : IVec S1x800000 32 := (extractStridedSlice S1x800000 ![1, 0] · slices_S2x800000_S1x800000_1_0) main_arg2
  let main_v55 : IVec S800000 32 := shapeCast S800000 main_v54 shapeCasts_S1x800000_S800000
  let main_c_20 : IVec S_ 32 := constantI S_ 32 4294917296#32
  let main_v56 : IVec S800000 32 := broadcastInDim S800000 ![] bcast_S_S800000 main_c_20
  let main_v57 : IVec S800000 1 := cmpi .sge main_v55 main_v56
  let main_v58 : IVec S1x800000 32 := (extractStridedSlice S1x800000 ![1, 0] · slices_S2x800000_S1x800000_1_0) main_arg2
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg2 : IVec S2x800000 32) (main_arg8 : FVec F S128 .f32) (main_arg9 : FVec F S128x128 .f32) (main_arg10 : FVec F S128 .f32) (main_arg11 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg2 main_v48 main_v49 main_v50

def fn_part1 {F : FTy → Type} [FloatOps F] (main_arg2 : IVec S2x800000 32) (main_arg5 : FVec F S50000x1 .f32) (main_arg6 : FVec F S800000x1 .f32) (main_arg7 : FVec F S272x128 .f32) (main_arg8 : FVec F S128 .f32) (main_arg9 : FVec F S128x128 .f32) (main_arg10 : FVec F S128 .f32) (main_arg11 : FVec F S128x1 .f32) (main_v13 : IVec S_ 1) (main_v16 : IVec S800000x3 1) : IVec S_ 1 :=
  let main_c_5 : IVec S_ 1 := constantI S_ 1 1#1
  let main_v17 : IVec S_ 1 := (fun x v => Host.reduce IntOp.andi x v reducesTo_S800000x3_S_d0_1 h_S_) main_v16 main_c_5
  let main_v18 : IVec S_ 1 := andi main_v13 main_v17
  let main_v19 : FVec F S50000x1 .f32 := Host.absf main_arg5
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S800000x1 .f32 := Host.absf main_arg6
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  let main_v29 : FVec F S272x128 .f32 := Host.absf main_arg7
  let main_cst_10 : FVec F S_ .f32 := constant S_ .f32 0x7F800000#32
  let main_v30 : FVec F S272x128 .f32 := broadcastInDim S272x128 ![] bcast_S_S272x128 main_cst_10
  let main_v31 : IVec S272x128 1 := cmpf .olt main_v29 main_v30
  let main_c_11 : IVec S_ 1 := constantI S_ 1 1#1
  let main_v32 : IVec S_ 1 := (fun x v => Host.reduce IntOp.andi x v reducesTo_S272x128_S_d0_1 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S50000x128 .f32) (main_arg1 : FVec F S50000x3 .f32) (main_arg2 : IVec S2x800000 32) (main_arg3 : FVec F S800000x16 .f32) (main_arg4 : FVec F S800000x3 .f32) (main_arg5 : FVec F S50000x1 .f32) (main_arg6 : FVec F S800000x1 .f32) (main_arg7 : FVec F S272x128 .f32) (main_arg8 : FVec F S128 .f32) (main_arg9 : FVec F S128x128 .f32) (main_arg10 : FVec F S128 .f32) (main_arg11 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x16 .f32 := Host.absf main_arg3
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S800000x3 .f32 := Host.absf main_arg4
  let main_cst_4 : FVec F S_ .f32 := constant S_ .f32 0x7F800000#32
  let main_v15 : FVec F S800000x3 .f32 := broadcastInDim S800000x3 ![] bcast_S_S800000x3 main_cst_4
  let main_v16 : IVec S800000x3 1 := cmpf .olt main_v14 main_v15
  fn_part1 (F := F) main_arg2 main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S800000x16 : Shape := ⟨2, ![800000, 16]⟩
abbrev S800000x3 : Shape := ⟨2, ![800000, 3]⟩
abbrev S50000x1 : Shape := ⟨2, ![50000, 1]⟩
abbrev S800000x1 : Shape := ⟨2, ![800000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S16x128 : Shape := ⟨2, ![16, 128]⟩
abbrev S1x128 : Shape := ⟨2, ![1, 128]⟩
abbrev S4000x128 : Shape := ⟨2, ![4000, 128]⟩
abbrev S4000x16 : Shape := ⟨2, ![4000, 16]⟩
abbrev S4000x3 : Shape := ⟨2, ![4000, 3]⟩
abbrev S4000x1 : Shape := ⟨2, ![4000, 1]⟩

abbrev nBuf : Space → Nat
  | .hbm => 75
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x16, .f32⟩
  | .hbm, ⟨4, _⟩ => ⟨S800000x3, .f32⟩
  | .hbm, ⟨5, _⟩ => ⟨S50000x1, .f32⟩
  | .hbm, ⟨6, _⟩ => ⟨S800000x1, .f32⟩
  | .hbm, ⟨7, _⟩ => ⟨S272x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x128, .f32⟩
  | .hbm, ⟨35, _⟩ => ⟨S800000x128, .i1⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S128x128, .f32⟩
  | .hbm, ⟨63, _⟩ => ⟨S128x128, .f32⟩
  | .hbm, ⟨64, _⟩ => ⟨S16x128, .f32⟩
  | .hbm, ⟨65, _⟩ => ⟨S1x128, .f32⟩
  | .hbm, ⟨66, _⟩ => ⟨S1x128, .f32⟩
  | .hbm, ⟨67, _⟩ => ⟨S800000x3, .f32⟩
  | .hbm, ⟨68, _⟩ => ⟨S_, .f32⟩
  | .hbm, ⟨69, _⟩ => ⟨S50000x3, .f32⟩
  | .hbm, ⟨70, _⟩ => ⟨S800000x1, .i32⟩
  | .hbm, ⟨71, _⟩ => ⟨S50000x3, .f32⟩
  | .hbm, ⟨72, _⟩ => ⟨S50000x3, .f32⟩
  | .hbm, ⟨73, _⟩ => ⟨S50000x3, .f32⟩
  | .hbm, ⟨74, _⟩ => ⟨S50000x3, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x16, .f32⟩
  | .local _ .vmem, ⟨5, _⟩ => ⟨S4000x16, .f32⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S4000x3, .f32⟩
  | .local _ .vmem, ⟨16, _⟩ => ⟨S4000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S272x128_S128x128_0_0 : S272x128.Slices ![0, 0] S128x128
  slices_S272x128_S128x128_128_0 : S272x128.Slices ![128, 0] S128x128
  slices_S272x128_S16x128_256_0 : S272x128.Slices ![256, 0] S16x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S4000x3_S4000x3_0_0 : ∀ a, (![0, 0] : Fin 2 → Nat) a + S4000x3.size a ≤ S4000x3.size a
  h_S4000x3 : 0 < S4000x3.numel
  broadcasts_S4000x1_S4000x3 : S4000x1.Broadcasts S4000x3
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  dot_S4000x128_S128x1_S4000x1_1_0_0_1_n_n_wf : DotDims.WF S4000x128 S128x1 S4000x1 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S800000x16.size a
  hwx0_2 : ∀ i : grid0.Coords, EltTy.bits .f32 = 32 ∨ (Rect.block (s := S800000x16) S4000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S800000x3.size a
  hwx0_3 : ∀ i : grid0.Coords, EltTy.bits .f32 = 32 ∨ (Rect.block (s := S800000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .f32 = 32 ∨ (Rect.block (s := S16x128) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S800000x3.size a
  hwx0_11 : ∀ i : grid0.Coords, EltTy.bits .f32 = 32 ∨ (Rect.block (s := S800000x3) S4000x3.size (cc0_transform_11 i) (hinb0_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S800000x16 : Shape := ⟨2, ![800000, 16]⟩
abbrev S800000x3 : Shape := ⟨2, ![800000, 3]⟩
abbrev S50000x1 : Shape := ⟨2, ![50000, 1]⟩
abbrev S800000x1 : Shape := ⟨2, ![800000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S800000x272 : Shape := ⟨2, ![800000, 272]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x16, .f32⟩
  | .hbm, ⟨4, _⟩ => ⟨S800000x3, .f32⟩
  | .hbm, ⟨5, _⟩ => ⟨S50000x1, .f32⟩
  | .hbm, ⟨6, _⟩ => ⟨S800000x1, .f32⟩
  | .hbm, ⟨7, _⟩ => ⟨S272x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x272, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x1, .f32⟩
  | .hbm, ⟨62, _⟩ => ⟨S800000x1, .f32⟩
  | .hbm, ⟨63, _⟩ => ⟨S800000x3, .f32⟩
  | .hbm, ⟨64, _⟩ => ⟨S800000x3, .f32⟩
  | .hbm, ⟨65, _⟩ => ⟨S_, .f32⟩
  | .hbm, ⟨66, _⟩ => ⟨S800000x3, .f32⟩
  | .hbm, ⟨67, _⟩ => ⟨S800000x3, .f32⟩
  | .hbm, ⟨68, _⟩ => ⟨S_, .f32⟩
  | .hbm, ⟨69, _⟩ => ⟨S50000x3, .f32⟩
  | .hbm, ⟨70, _⟩ => ⟨S800000x1, .i32⟩
  | .hbm, ⟨71, _⟩ => ⟨S50000x3, .f32⟩
  | .hbm, ⟨72, _⟩ => ⟨S50000x3, .f32⟩
  | .hbm, ⟨73, _⟩ => ⟨S50000x3, .f32⟩
  | .hbm, ⟨74, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  dot_S800000x272_S272x128_S800000x128_1_0_0_1_n_n_wf : DotDims.WF S800000x272 S272x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x128_S800000x128_1_0_0_1_n_n : DotDims S800000x272 S272x128 S800000x128 where
  lhsContracting := [1]
  rhsContracting := [0]
  lhsNonContracting := [0]
  rhsNonContracting := [1]
  lhsBatch := []
  rhsBatch := []
  wf := dot_S800000x272_S272x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The mathematics of one coordinate-update layer of an equivariant graph network, over the extended reals, stated once
  for both programs: nodes `i < 50000` with features `h i : ℝ̄^128` and coordinates `x i : ℝ̄^3`, edges `e < 800000` with a
  source word and a target word (`ei 0 e`, `ei 1 e`), attributes `ea e : ℝ̄^16` and a coordinate difference `cd e : ℝ̄^3`.

  * Per edge, a three-layer perceptron on the 272 numbers (features of the source, features of the target, attributes):
    `z¹ = [hr, hc, ea]·W1 + b1`, `a¹ = silu z¹`, `z² = a¹·W2 + b2`, `a² = silu z²`, `g = tanh (a²·W3)`; the edge's
    translation is `cd · g · 15`. The first product is written as the sum of its three row-blocks (rows 0–127, 128–255,
    256–271 of `W1`); `silu z = z · logistic z`.
  * Per node, the translations of the edges whose source WORD, read as a signed integer, is the node's number are added
    up (an edge whose word names no node contributes nowhere), added to `x`, and multiplied by the node's flag.
  * A feature row is fetched for an index word by first wrapping a negative word (adding 50000) and then either clamping
    the wrapped word into `[0, 49999]` (`rowClamp`) or, when the wrapped word is not in that range, answering a fill
    value instead (`rowFill`). On words in `[-50000, 50000)` the two agree (`rowFill_eq_rowClamp`).
-/
import Idealize.ShloMosaic.PureOps.Ideal
import Idealize.ShloMosaic.Lib.ValueIdx

open scoped BigOperators

namespace Cert.Proof.Spec

open Idealize.ShloMosaic

/-! ## The perceptron of one edge -/

/-- `z · σ(z)`, `σ` the logistic function `1 / (1 + e^(-z))`. -/
noncomputable def silu (z : EReal) : EReal := z * Ideal.logistic z

/-- The first layer before its activation, at hidden unit `j`: the three row-blocks of the 272-term product, then the bias. -/
noncomputable def z1 (hr hc : Fin 128 → EReal) (ea : Fin 16 → EReal) (W1r W1c : Fin 128 → Fin 128 → EReal)
    (W1e : Fin 16 → Fin 128 → EReal) (b1 : Fin 128 → EReal) (j : Fin 128) : EReal :=
  (∑ k : Fin 128, hr k * W1r k j) + (∑ k : Fin 128, hc k * W1c k j) + (∑ k : Fin 16, ea k * W1e k j) + b1 j

/-- The second layer before its activation, at hidden unit `j`. -/
noncomputable def z2 (a : Fin 128 → EReal) (W2 : Fin 128 → Fin 128 → EReal) (b2 : Fin 128 → EReal) (j : Fin 128) : EReal :=
  (∑ k : Fin 128, a k * W2 k j) + b2 j

/-- The edge's gate: `tanh` of the last layer's one output. -/
noncomputable def gate (a : Fin 128 → EReal) (W3 : Fin 128 → EReal) : EReal := Ideal.tanh (∑ k : Fin 128, a k * W3 k)

/-- The scale 15 as both programs spell it: the f32 word `0x41700000`. -/
noncomputable def fifteen : EReal := Ideal.ofBits .f32 0x41700000#32

/-- One coordinate of one edge's translation: `cd · tanh(silu(silu([hr,hc,ea]·W1 + b1)·W2 + b2)·W3) · 15`. -/
noncomputable def edge (hr hc : Fin 128 → EReal) (ea : Fin 16 → EReal) (cd : EReal) (W1r W1c : Fin 128 → Fin 128 → EReal)
    (W1e : Fin 16 → Fin 128 → EReal) (b1 : Fin 128 → EReal) (W2 : Fin 128 → Fin 128 → EReal) (b2 : Fin 128 → EReal)
    (W3 : Fin 128 → EReal) : EReal :=
  cd * gate (fun k => silu (z2 (fun k' => silu (z1 hr hc ea W1r W1c W1e b1 k')) W2 b2 k)) W3 * fifteen

/-! ## Fetching a feature row for an index word -/

/-- A negative index word counts from the end: 50000 is added to it (in 32-bit arithmetic). -/
def wrap (w : BitVec 32) : BitVec 32 := Scalar.select (IntOp.cmpi .slt w 0#32) (IntOp.addi w 50000#32) w

/-- The range test on a (wrapped) word: `0 ≤ w ≤ 49999`, signed, as a bit. -/
def inb (w : BitVec 32) : BitVec 1 := IntOp.andi (IntOp.cmpi .sge w 0#32) (IntOp.cmpi .sle w 49999#32)

/-- The row number a clamping fetch reads for a word: the word as a signed integer, clamped into `[0, 49999]`. -/
def clampRow (w : BitVec 32) : Fin 50000 := ⟨min w.toInt.toNat 49999, by omega⟩

/-- Fetch by wrap-then-clamp: entry `k` of row `clampRow (wrap w)`. -/
def rowClamp {α : Type} (h : Fin 50000 → Fin 128 → α) (w : BitVec 32) (k : Fin 128) : α := h (clampRow (wrap w)) k

/-- Fetch by wrap-then-fill: the same entry when the wrapped word is in range, the fill value `nan` otherwise. -/
def rowFill {α : Type} (nan : α) (h : Fin 50000 → Fin 128 → α) (w : BitVec 32) (k : Fin 128) : α :=
  Scalar.select (inb (wrap w)) (h (clampRow (wrap w)) k) nan

/-- A word in `[-50000, 50000)` wraps into range. -/
theorem inb_wrap_of_range (w : BitVec 32) (h1 : -50000 ≤ w.toInt) (h2 : w.toInt < 50000) : inb (wrap w) = 1#1 := by
  have hlt : w.toInt < 0 ↔ w.slt 0#32 = true := by
    rw [BitVec.slt_iff_toInt_lt]; simp
  unfold inb wrap IntOp.andi IntOp.cmpi IntOp.addi Scalar.select
  by_cases hneg : w.toInt < 0
  · have hs : w.slt 0#32 = true := hlt.mp hneg
    have hadd : (w + 50000#32).toInt = w.toInt + 50000 := by
      rw [BitVec.toInt_add]
      have : (50000#32 : BitVec 32).toInt = 50000 := by decide
      rw [this]
      have hb := BitVec.toInt_lt (x := w)
      have hb' := BitVec.le_toInt (x := w)
      simp only [Int.bmod]
      omega
    have h0 : (0#32 : BitVec 32).sle (w + 50000#32) = true := by
      rw [BitVec.sle_iff_toInt_le]; rw [hadd]; simp; omega
    have h9 : (w + 50000#32).sle 49999#32 = true := by
      rw [BitVec.sle_iff_toInt_le]; rw [hadd]
      have : (49999#32 : BitVec 32).toInt = 49999 := by decide
      rw [this]; omega
    simp [hs, h0, h9]
  · have hs : w.slt 0#32 = false := by
      cases hb : w.slt 0#32
      · rfl
      · exact absurd (hlt.mpr hb) hneg
    have h0 : (0#32 : BitVec 32).sle w = true := by
      rw [BitVec.sle_iff_toInt_le]; simp; omega
    have h9 : w.sle 49999#32 = true := by
      rw [BitVec.sle_iff_toInt_le]
      have : (49999#32 : BitVec 32).toInt = 49999 := by decide
      rw [this]; omega
    simp [hs, h0, h9]

/-- On a word in `[-50000, 50000)` the filling fetch is the clamping fetch. -/
theorem rowFill_eq_rowClamp {α : Type} (nan : α) (h : Fin 50000 → Fin 128 → α) (w : BitVec 32)
    (h1 : -50000 ≤ w.toInt) (h2 : w.toInt < 50000) : rowFill nan h w = rowClamp h w := by
  funext k
  unfold rowFill rowClamp Scalar.select
  exact if_pos (inb_wrap_of_range w h1 h2)

/-! ## The layer -/

/-- The zero the accumulation starts from, as both programs spell it: the f32 word `0`. -/
noncomputable def zero : EReal := Ideal.ofBits .f32 0x00000000#32

/-- The rows of `W1` that multiply the source's features, the target's features, the edge's attributes. -/
def W1r {α : Type} (W1 : Fin 272 → Fin 128 → α) (k j : Fin 128) : α := W1 ⟨k.val, by omega⟩ j
def W1c {α : Type} (W1 : Fin 272 → Fin 128 → α) (k j : Fin 128) : α := W1 ⟨128 + k.val, by omega⟩ j
def W1e {α : Type} (W1 : Fin 272 → Fin 128 → α) (k : Fin 16) (j : Fin 128) : α := W1 ⟨256 + k.val, by omega⟩ j

/-- A node's new coordinate from the edges' translations `tr`: `(x + (0 + Σ_{e : word e = i} tr e q)) · flag`. -/
noncomputable def node (x : Fin 50000 → Fin 3 → EReal) (fl : Fin 50000 → EReal) (rowW : Fin 800000 → BitVec 32)
    (tr : Fin 800000 → Fin 3 → EReal) (i : Fin 50000) (q : Fin 3) : EReal :=
  (x i q + (zero + ∑ e ∈ Finset.univ.filter (fun e : Fin 800000 => (rowW e).toInt = (i.val : Int)), tr e q)) * fl i

/-- The translations when rows are fetched by `fetch` (one of `rowClamp`, `rowFill nan`). -/
noncomputable def trans (fetch : (Fin 50000 → Fin 128 → EReal) → BitVec 32 → Fin 128 → EReal)
    (h : Fin 50000 → Fin 128 → EReal) (ei : Fin 2 → Fin 800000 → BitVec 32) (ea : Fin 800000 → Fin 16 → EReal)
    (cd : Fin 800000 → Fin 3 → EReal) (W1 : Fin 272 → Fin 128 → EReal) (b1 : Fin 128 → EReal)
    (W2 : Fin 128 → Fin 128 → EReal) (b2 : Fin 128 → EReal) (W3 : Fin 128 → EReal) (e : Fin 800000) (q : Fin 3) : EReal :=
  edge (fetch h (ei 0 e)) (fetch h (ei 1 e)) (ea e) (cd e q) (W1r W1) (W1c W1) (W1e W1) b1 W2 b2 W3

/-- THE LAYER, rows fetched by `fetch`. -/
noncomputable def layer (fetch : (Fin 50000 → Fin 128 → EReal) → BitVec 32 → Fin 128 → EReal)
    (h : Fin 50000 → Fin 128 → EReal) (x : Fin 50000 → Fin 3 → EReal) (ei : Fin 2 → Fin 800000 → BitVec 32)
    (ea : Fin 800000 → Fin 16 → EReal) (cd : Fin 800000 → Fin 3 → EReal) (fl : Fin 50000 → EReal)
    (W1 : Fin 272 → Fin 128 → EReal) (b1 : Fin 128 → EReal) (W2 : Fin 128 → Fin 128 → EReal) (b2 : Fin 128 → EReal)
    (W3 : Fin 128 → EReal) (i : Fin 50000) (q : Fin 3) : EReal :=
  node x fl (ei 0) (trans fetch h ei ea cd W1 b1 W2 b2 W3) i q

/-- The filling layer is the clamping layer when every TARGET word is in `[-50000, 50000)`: an edge that lands on node
    `i` has source word `i`, in range, so both of its rows are fetched alike; the other edges land nowhere. -/
theorem layer_fill_eq_clamp (nan : EReal) (h : Fin 50000 → Fin 128 → EReal) (x : Fin 50000 → Fin 3 → EReal)
    (ei : Fin 2 → Fin 800000 → BitVec 32) (ea : Fin 800000 → Fin 16 → EReal) (cd : Fin 800000 → Fin 3 → EReal)
    (fl : Fin 50000 → EReal) (W1 : Fin 272 → Fin 128 → EReal) (b1 : Fin 128 → EReal) (W2 : Fin 128 → Fin 128 → EReal)
    (b2 : Fin 128 → EReal) (W3 : Fin 128 → EReal)
    (hcol : ∀ e : Fin 800000, -50000 ≤ (ei 1 e).toInt ∧ (ei 1 e).toInt < 50000) (i : Fin 50000) (q : Fin 3) :
    layer (rowFill nan) h x ei ea cd fl W1 b1 W2 b2 W3 i q = layer rowClamp h x ei ea cd fl W1 b1 W2 b2 W3 i q := by
  unfold layer node
  refine congrArg (fun s => (x i q + (zero + s)) * fl i) ?_
  refine Finset.sum_congr rfl fun e he => ?_
  have hr : (ei 0 e).toInt = (i.val : Int) := (Finset.mem_filter.mp he).2
  have hi := i.isLt
  unfold trans
  rw [rowFill_eq_rowClamp nan h (ei 0 e) (by omega) (by omega),
    rowFill_eq_rowClamp nan h (ei 1 e) (hcol e).1 (hcol e).2]

/-! ## The layer over the programs' arrays -/

open Idealize.ShloMosaic.ValueIdx

/-- A rank-2 array as a function of its two coordinates; a rank-1 array of its one; a one-column array of its row. -/
abbrev m2 {α : Type} {n m : Nat} (a : (⟨2, ![n, m]⟩ : Shape).Idx → α) : Fin n → Fin m → α := fun i j => a (ix2 i j)
abbrev m1 {α : Type} {n : Nat} (a : (⟨1, ![n]⟩ : Shape).Idx → α) : Fin n → α := fun i => a (ix1 i)
abbrev col0 {α : Type} {n : Nat} (a : (⟨2, ![n, 1]⟩ : Shape).Idx → α) : Fin n → α := fun i => a (ix2 i (0 : Fin 1))

/-- THE LAYER as one whole-array function of the twelve argument arrays but the unused edge mask: `h`, `x`,
    `edge_index`, `edge_attr`, `coord_diff`, `flags`, `W1`, `b1`, `W2`, `b2`, `W3`. -/
noncomputable def layerOf (fetch : (Fin 50000 → Fin 128 → EReal) → BitVec 32 → Fin 128 → EReal)
    (h : (⟨2, ![50000, 128]⟩ : Shape).Idx → EReal) (x : (⟨2, ![50000, 3]⟩ : Shape).Idx → EReal)
    (ei : (⟨2, ![2, 800000]⟩ : Shape).Idx → BitVec 32) (ea : (⟨2, ![800000, 16]⟩ : Shape).Idx → EReal)
    (cd : (⟨2, ![800000, 3]⟩ : Shape).Idx → EReal) (fl : (⟨2, ![50000, 1]⟩ : Shape).Idx → EReal)
    (W1 : (⟨2, ![272, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal) : (⟨2, ![50000, 3]⟩ : Shape).Idx → EReal := fun i =>
  layer fetch (m2 h) (m2 x) (m2 ei) (m2 ea) (m2 cd) (col0 fl) (m2 W1) (m1 b1) (m2 W2) (m1 b2) (col0 W3) (i 0) (i 1)

/-- The fill value the filling fetch answers with: the f32 word `0x7FC00000`. -/
noncomputable def nan : EReal := Ideal.ofBits .f32 0x7FC00000#32

/-- The filling layer over the arrays is the clamping one when every target word is in `[-50000, 50000)`. -/
theorem layerOf_fill_eq_clamp (h : (⟨2, ![50000, 128]⟩ : Shape).Idx → EReal) (x : (⟨2, ![50000, 3]⟩ : Shape).Idx → EReal)
    (ei : (⟨2, ![2, 800000]⟩ : Shape).Idx → BitVec 32) (ea : (⟨2, ![800000, 16]⟩ : Shape).Idx → EReal)
    (cd : (⟨2, ![800000, 3]⟩ : Shape).Idx → EReal) (fl : (⟨2, ![50000, 1]⟩ : Shape).Idx → EReal)
    (W1 : (⟨2, ![272, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal)
    (hcol : ∀ e : Fin 800000, -50000 ≤ (ei (ix2 (1 : Fin 2) e)).toInt ∧ (ei (ix2 (1 : Fin 2) e)).toInt < 50000) :
    layerOf (rowFill nan) h x ei ea cd fl W1 b1 W2 b2 W3 = layerOf rowClamp h x ei ea cd fl W1 b1 W2 b2 W3 := by
  funext i
  exact layer_fill_eq_clamp nan _ _ _ _ _ _ _ _ _ _ _ hcol (i 0) (i 1)

end Cert.Proof.Spec
-- ==== Proof.PreCol.lean ====
import proofs.«406178_j12610023981468_1_alg».proof.Pre_finite_inputs
import proofs.«406178_j12610023981468_1_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Proof.PreCol

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- Row 1 of the edge index as a vector: entry `e` of the slice `[1:2, :]` reshaped to `[800000]` is the entry `(1, e)`. -/
theorem colvec_apply (a2 : IVec S2x800000 32) (e : Fin 800000) :
    shapeCast S800000 ((extractStridedSlice S1x800000 ![1, 0] · slices_S2x800000_S1x800000_1_0) a2) shapeCasts_S1x800000_S800000 (ix1 e)
      = a2 (ix2 (1 : Fin 2) e) := by
  have h1 := shapeCast_apply ((extractStridedSlice S1x800000 ![1, 0] · slices_S2x800000_S1x800000_1_0) a2)
    shapeCasts_S1x800000_S800000 (ix1 e) (ix2 (0 : Fin 1) e)
    (by rewrite [Shape.rowMajor_val_two, Shape.rowMajor_val_one]; show 0 * 800000 + e.val = e.val; omega)
  rw [h1]
  exact extractStridedSlice_apply ![1, 0] a2 slices_S2x800000_S1x800000_1_0 (ix2 (0 : Fin 1) e) (ix2 (1 : Fin 2) e) (fun a => match a with
    | ⟨0, _⟩ => by show 1 = 1 + 0; omega
    | ⟨1, _⟩ => by show e.val = 0 + e.val; omega)

/-- THE ADDED CONJUNCT READ BACK: under the precondition every target word of the edge index, read signed, lies in
    `[-50000, 50000)`. -/
theorem col_range (a0 : FVec Ideal S50000x128 .f32) (a1 : FVec Ideal S50000x3 .f32) (a2 : IVec S2x800000 32)
    (a3 : FVec Ideal S800000x16 .f32) (a4 : FVec Ideal S800000x3 .f32) (a5 : FVec Ideal S50000x1 .f32)
    (a6 : FVec Ideal S800000x1 .f32) (a7 : FVec Ideal S272x128 .f32) (a8 : FVec Ideal S128 .f32)
    (a9 : FVec Ideal S128x128 .f32) (a10 : FVec Ideal S128 .f32) (a11 : FVec Ideal S128x1 .f32)
    (h : fn (F := Ideal) a0 a1 a2 a3 a4 a5 a6 a7 a8 a9 a10 a11 = fun _ => 1#1) (e : Fin 800000) :
    -50000 ≤ (a2 (ix2 (1 : Fin 2) e)).toInt ∧ (a2 (ix2 (1 : Fin 2) e)).toInt < 50000 := by
  have h0 := congrFun h ix0
  dsimp only [fn, fn_part1, fn_part2, fn_part3] at h0
  have hall := (IntOp.andi_eq_one.1 h0).2
  have he := Host.reduce_andi_all _ _ _ _ _ hall (ix1 e)
  obtain ⟨hge, hlt⟩ := IntOp.andi_eq_one.1 he
  have hge' : IntOp.cmpi .sge (shapeCast S800000 ((extractStridedSlice S1x800000 ![1, 0] · slices_S2x800000_S1x800000_1_0) a2) shapeCasts_S1x800000_S800000 (ix1 e))
      (broadcastInDim S800000 ![] bcast_S_S800000 (constantI S_ 32 4294917296#32) (ix1 e)) = 1#1 := hge
  have hlt' : IntOp.cmpi .slt (shapeCast S800000 ((extractStridedSlice S1x800000 ![1, 0] · slices_S2x800000_S1x800000_1_0) a2) shapeCasts_S1x800000_S800000 (ix1 e))
      (broadcastInDim S800000 ![] bcast_S_S800000 (constantI S_ 32 50000#32) (ix1 e)) = 1#1 := hlt
  rw [colvec_apply, broadcastInDim_apply _ bcast_S_S800000 _ (ix1 e) ix0 (fun a => a.elim0)] at hge' hlt'
  have c1 : (4294917296#32 : BitVec 32).toInt = -50000 := by decide
  have c2 : (50000#32 : BitVec 32).toInt = 50000 := by decide
  constructor
  · have : (4294917296#32 : BitVec 32).sle (a2 (ix2 (1 : Fin 2) e)) = true := by
      have h' : BitVec.ofBool ((4294917296#32 : BitVec 32).sle (a2 (ix2 (1 : Fin 2) e))) = 1#1 := by
        simpa [IntOp.cmpi, constantI] using hge'
      cases hb : (4294917296#32 : BitVec 32).sle (a2 (ix2 (1 : Fin 2) e))
      · rw [hb] at h'; exact absurd h' (by decide)
      · rfl
    rw [BitVec.sle_iff_toInt_le, c1] at this
    exact this
  · have : (a2 (ix2 (1 : Fin 2) e)).slt (50000#32 : BitVec 32) = true := by
      have h' : BitVec.ofBool ((a2 (ix2 (1 : Fin 2) e)).slt (50000#32 : BitVec 32)) = 1#1 := by
        simpa [IntOp.cmpi, constantI] using hlt'
      cases hb : (a2 (ix2 (1 : Fin 2) e)).slt (50000#32 : BitVec 32)
      · rw [hb] at h'; exact absurd h' (by decide)
      · rfl
    rw [BitVec.slt_iff_toInt_lt, c2] at this
    exact this

end Cert.Proof.PreCol

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RefSide.lean ====
import proofs.«406178_j12610023981468_1_alg».proof.Proof.Gen.ReferenceIdeal.Read
import proofs.«406178_j12610023981468_1_alg».proof.Proof.Spec
import proofs.«406178_j12610023981468_1_alg».proof.Proof.LibGatherScatter
import Idealize.ShloMosaic.Lib.ValueIdx
import Idealize.ShloMosaic.Lib.IdealHost
import Idealize.ShloMosaic.Lib.Pipeline.Value
import Mathlib.Algebra.BigOperators.Fin

noncomputable section

namespace Cert.Proof.RefSide

open Idealize.ShloMosaic Idealize.ShloMosaic.TcCoe Idealize.SL.Sem Idealize.ShloMosaic.ValueIdx Cert.ReferenceIdeal Cert.ReferenceIdeal.Gen Cert.Proof

open scoped BigOperators

/-! ## A sum over 272 terms as its three blocks 128 + 128 + 16 -/

private theorem sum272 {M : Type} [AddCommMonoid M] (f : Fin 272 → M) :
    ∑ k, f k = (∑ k : Fin 128, f ⟨k.val, by omega⟩) + (∑ k : Fin 128, f ⟨128 + k.val, by omega⟩)
      + ∑ k : Fin 16, f ⟨256 + k.val, by omega⟩ := by
  have h1 := Fin.sum_univ_add (a := 256) (b := 16) f
  have h2 := Fin.sum_univ_add (a := 128) (b := 128) (fun i : Fin 256 => f (Fin.castAdd 16 i))
  rw [h1, h2]
  rfl

/-! ## The three-piece concatenation along the columns, read at a column of each piece -/

section Cat
variable {α : Type} (A B : S800000x128.Idx → α) (C : S800000x16.Idx → α)
  (h : Shape.Concatenates [S800000x128, S800000x128, S800000x16] S800000x272 1)

private theorem cat_left (e : Fin 800000) (k : Fin 128) :
    concatenate S800000x272 1 [⟨S800000x128, A⟩, ⟨S800000x128, B⟩, ⟨S800000x16, C⟩] h
      (ix2 e (⟨k.val, by omega⟩ : Fin 272)) = A (ix2 e k) := by
  refine concatenate_apply_piece (1 : Fin S800000x272.rank) ([⟨S800000x128, A⟩, ⟨S800000x128, B⟩, ⟨S800000x16, C⟩] : List ((s : Shape) × (s.Idx → α))) h _ 0 (by show 0 < 3; omega) S800000x128 A rfl rfl 0 rfl (ix2 e k) ?_ ?_
  · intro b hb
    match b with
    | ⟨0, _⟩ => rfl
    | ⟨1, _⟩ => exact absurd rfl hb
  · show 0 + k.val = k.val
    omega

private theorem cat_mid (e : Fin 800000) (k : Fin 128) :
    concatenate S800000x272 1 [⟨S800000x128, A⟩, ⟨S800000x128, B⟩, ⟨S800000x16, C⟩] h
      (ix2 e (⟨128 + k.val, by omega⟩ : Fin 272)) = B (ix2 e k) := by
  refine concatenate_apply_piece (1 : Fin S800000x272.rank) ([⟨S800000x128, A⟩, ⟨S800000x128, B⟩, ⟨S800000x16, C⟩] : List ((s : Shape) × (s.Idx → α))) h _ 1 (by show 1 < 3; omega) S800000x128 B rfl rfl 128 rfl (ix2 e k) ?_ ?_
  · intro b hb
    match b with
    | ⟨0, _⟩ => rfl
    | ⟨1, _⟩ => exact absurd rfl hb
  · rfl

private theorem cat_right (e : Fin 800000) (k : Fin 16) :
    concatenate S800000x272 1 [⟨S800000x128, A⟩, ⟨S800000x128, B⟩, ⟨S800000x16, C⟩] h
      (ix2 e (⟨256 + k.val, by omega⟩ : Fin 272)) = C (ix2 e k) := by
  refine concatenate_apply_piece (1 : Fin S800000x272.rank) ([⟨S800000x128, A⟩, ⟨S800000x128, B⟩, ⟨S800000x16, C⟩] : List ((s : Shape) × (s.Idx → α))) h _ 2 (by show 2 < 3; omega) S800000x16 C rfl rfl 256 rfl (ix2 e k) ?_ ?_
  · intro b hb
    match b with
    | ⟨0, _⟩ => rfl
    | ⟨1, _⟩ => exact absurd rfl hb
  · rfl

end Cat

/-! ## The index words -/

section Words
variable (x0 : (⟨S50000x128, .f32⟩ : BufTy).Contents (Elt Ideal)) (x2 : (⟨S2x800000, .i32⟩ : BufTy).Contents (Elt Ideal))

/-- Row 0 of the edge index at edge `e`. -/
private theorem v1_at (e : Fin 800000) : Read.val_main_v1 (F := Ideal) x2 (ix1 e) = x2 (ix2 (0 : Fin 2) e) := by
  rw [Read.val_main_v1_apply, Read.val_main_v0_apply]
  congr 1
  funext a
  match a with
  | ⟨0, _⟩ => rfl
  | ⟨1, _⟩ => exact Fin.ext (Nat.mod_eq_of_lt e.isLt)

/-- Row 1 of the edge index at edge `e`. -/
private theorem v3_at (e : Fin 800000) : Read.val_main_v3 (F := Ideal) x2 (ix1 e) = x2 (ix2 (1 : Fin 2) e) := by
  rw [Read.val_main_v3_apply, Read.val_main_v2_apply]
  congr 1
  funext a
  match a with
  | ⟨0, _⟩ => rfl
  | ⟨1, _⟩ => exact Fin.ext (Nat.mod_eq_of_lt e.isLt)

/-- The wrapped source word as a one-column array. -/
private theorem v9_at (e : Fin 800000) :
    Read.val_main_v9 (F := Ideal) x2 (ix2 e (0 : Fin 1)) = Spec.wrap (x2 (ix2 (0 : Fin 2) e)) := by
  rw [Read.val_main_v9_apply]
  have hi : Read.idx_main_v9 (ix2 e (0 : Fin 1)) = ix1 e := by
    funext a; match a with | ⟨0, _⟩ => rfl
  rw [hi, Read.val_main_v8_apply, Read.val_main_v5_apply, Read.val_main_v7_apply, Read.val_main_v4_apply,
    Read.val_main_v6_apply, Read.val_main_c_apply, Read.val_main_c_0_apply, v1_at]
  rfl

/-- The wrapped target word as a one-column array. -/
private theorem v16_at (e : Fin 800000) :
    Read.val_main_v16 (F := Ideal) x2 (ix2 e (0 : Fin 1)) = Spec.wrap (x2 (ix2 (1 : Fin 2) e)) := by
  rw [Read.val_main_v16_apply]
  have hi : Read.idx_main_v16 (ix2 e (0 : Fin 1)) = ix1 e := by
    funext a; match a with | ⟨0, _⟩ => rfl
  rw [hi, Read.val_main_v15_apply, Read.val_main_v12_apply, Read.val_main_v14_apply, Read.val_main_v11_apply,
    Read.val_main_v13_apply, Read.val_main_c_1_apply, Read.val_main_c_2_apply, v3_at]
  rfl

/-- The scatter's index column: the unwrapped source word. -/
private theorem v36_at (e : Fin 800000) :
    Read.val_main_v36 (F := Ideal) x2 (ix2 e (0 : Fin 1)) = x2 (ix2 (0 : Fin 2) e) := by
  rw [Read.val_main_v36_apply]
  have hi : Read.idx_main_v36 (ix2 e (0 : Fin 1)) = ix1 e := by
    funext a; match a with | ⟨0, _⟩ => rfl
  rw [hi, v1_at]

/-! ## The two row gathers -/

/-- The clamp of the gather is the specification's. -/
private theorem row_eq (w : BitVec 32) : GS.row (N := 50000) (by decide) w = Spec.clampRow w := Fin.ext rfl

private theorem gather_at (idx : IVec S800000x1 32) (e : Fin 800000) (k : Fin 128) :
    Host.gather gather_S50000x128_S800000x1_S800000x128_1_0_n_n_0_1_1128 x0 idx (ix2 e k)
      = x0 (ix2 (Spec.clampRow (idx (ix2 e (0 : Fin 1)))) k) := by
  have h := GS.gather_gathD_apply (N := 50000) (E := 800000) (D := 128) (by decide)
    Cert.ReferenceIdeal.Gen.gather_S50000x128_S800000x1_S800000x128_1_0_n_n_0_1_1128_wf x0 idx e k
  rw [row_eq] at h
  exact h

private theorem v10_at (e : Fin 800000) (k : Fin 128) :
    Read.val_main_v10 (F := Ideal) x0 x2 (ix2 e k) = Spec.rowClamp (Spec.m2 x0) (x2 (ix2 (0 : Fin 2) e)) k := by
  unfold Read.val_main_v10
  rw [gather_at, v9_at]
  rfl

private theorem v17_at (e : Fin 800000) (k : Fin 128) :
    Read.val_main_v17 (F := Ideal) x0 x2 (ix2 e k) = Spec.rowClamp (Spec.m2 x0) (x2 (ix2 (1 : Fin 2) e)) k := by
  unfold Read.val_main_v17
  rw [gather_at, v16_at]
  rfl

end Words

/-! ## The perceptron of one edge, stage by stage -/

section Edge
variable (x0 : (⟨S50000x128, .f32⟩ : BufTy).Contents (Elt Ideal))
  (x2 : (⟨S2x800000, .i32⟩ : BufTy).Contents (Elt Ideal)) (x3 : (⟨S800000x16, .f32⟩ : BufTy).Contents (Elt Ideal))
  (x4 : (⟨S800000x3, .f32⟩ : BufTy).Contents (Elt Ideal))
  (x7 : (⟨S272x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x1, .f32⟩ : BufTy).Contents (Elt Ideal))

/-- The reference's spelling of `z · σ(z)`: `z · (1 / (1 + e^(-z)))` with the constant one as its f32 word. -/
private theorem silu_eq (z : EReal) :
    z * Ideal.div (Ideal.ofBits .f32 0x3F800000#32) (Ideal.ofBits .f32 0x3F800000#32 + Ideal.exp (-z)) = Spec.silu z := by
  rw [Ideal.ofBits_one_f32]
  rfl

/-- The first layer's three row-blocks at `(e, j)`. -/
private theorem v19_at (e : Fin 800000) (j : Fin 128) :
    Read.val_main_v19 (F := Ideal) x0 x2 x3 x7 (ix2 e j)
      = (∑ k : Fin 128, Spec.rowClamp (Spec.m2 x0) (x2 (ix2 (0 : Fin 2) e)) k * Spec.W1r (Spec.m2 x7) k j)
        + (∑ k : Fin 128, Spec.rowClamp (Spec.m2 x0) (x2 (ix2 (1 : Fin 2) e)) k * Spec.W1c (Spec.m2 x7) k j)
        + ∑ k : Fin 16, x3 (ix2 e k) * Spec.W1e (Spec.m2 x7) k j := by
  have hl : ∀ k : Fin 272, Read.lidx_main_v19 (ix2 e j) k = ix2 e k := fun k => by
    funext a; match a with | ⟨0, _⟩ => rfl | ⟨1, _⟩ => rfl
  have hr : ∀ k : Fin 272, Read.ridx_main_v19 (ix2 e j) k = ix2 k j := fun k => by
    funext a; match a with | ⟨0, _⟩ => rfl | ⟨1, _⟩ => rfl
  rw [Read.val_main_v19_apply, sum272]
  simp only [hl, hr]
  unfold Read.val_main_v18
  congr 1
  · congr 1
    · refine Finset.sum_congr rfl fun k _ => ?_
      rw [cat_left, v10_at]
      rfl
    · refine Finset.sum_congr rfl fun k _ => ?_
      rw [cat_mid, v17_at]
      rfl
  · refine Finset.sum_congr rfl fun k _ => ?_
    rw [cat_right]
    rfl

/-- The first layer before its activation at `(e, j)`. -/
private theorem v22_at (e : Fin 800000) (j : Fin 128) :
    Read.val_main_v22 (F := Ideal) x0 x2 x3 x7 x8 (ix2 e j)
      = Spec.z1 (Spec.rowClamp (Spec.m2 x0) (x2 (ix2 (0 : Fin 2) e))) (Spec.rowClamp (Spec.m2 x0) (x2 (ix2 (1 : Fin 2) e)))
          (Spec.m2 x3 e) (Spec.W1r (Spec.m2 x7)) (Spec.W1c (Spec.m2 x7)) (Spec.W1e (Spec.m2 x7)) (Spec.m1 x8) j := by
  rw [Read.val_main_v22_apply, v19_at, Read.val_main_v21_apply, Read.val_main_v20_apply]
  have hi : Read.idx_main_v20 (Read.idx_main_v21 (ix2 e j)) = ix1 j := by
    funext a; match a with | ⟨0, _⟩ => rfl
  rw [hi]
  rfl

/-- The first activation at any index. -/
private theorem v23_at (i : S800000x128.Idx) :
    Read.val_main_v23 (F := Ideal) x0 x2 x3 x7 x8 i = Spec.silu (Read.val_main_v22 (F := Ideal) x0 x2 x3 x7 x8 i) := by
  rw [Read.val_main_v23_apply, Read.val_main_call0_v5_apply, Read.val_main_call0_v4_apply, Read.val_main_call0_cst_0_apply,
    Read.val_main_call0_v3_apply, Read.val_main_call0_v2_apply, Read.val_main_call0_cst_apply,
    Read.val_main_call0_v1_apply, Read.val_main_call0_v0_apply]
  exact silu_eq _

end Edge

section Edge2
variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S800000x16, .f32⟩ : BufTy).Contents (Elt Ideal))
  (x4 : (⟨S800000x3, .f32⟩ : BufTy).Contents (Elt Ideal)) (x5 : (⟨S50000x1, .f32⟩ : BufTy).Contents (Elt Ideal))
  (x7 : (⟨S272x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x1, .f32⟩ : BufTy).Contents (Elt Ideal))

/-- The first layer's activations of edge `e`, as the specification writes them. -/
private abbrev a1 (e : Fin 800000) (k : Fin 128) : EReal :=
  Spec.silu (Spec.z1 (Spec.rowClamp (Spec.m2 x0) (x2 (ix2 (0 : Fin 2) e))) (Spec.rowClamp (Spec.m2 x0) (x2 (ix2 (1 : Fin 2) e)))
    (Spec.m2 x3 e) (Spec.W1r (Spec.m2 x7)) (Spec.W1c (Spec.m2 x7)) (Spec.W1e (Spec.m2 x7)) (Spec.m1 x8) k)

/-- The second layer before its activation at `(e, j)`. -/
private theorem v27_at (e : Fin 800000) (j : Fin 128) :
    Read.val_main_v27 (F := Ideal) x0 x2 x3 x7 x8 x9 x10 (ix2 e j)
      = Spec.z2 (a1 x0 x2 x3 x7 x8 e) (Spec.m2 x9) (Spec.m1 x10) j := by
  have hl : ∀ k : Fin 128, Read.lidx_main_v24 (ix2 e j) k = ix2 e k := fun k => by
    funext a; match a with | ⟨0, _⟩ => rfl | ⟨1, _⟩ => rfl
  have hr : ∀ k : Fin 128, Read.ridx_main_v24 (ix2 e j) k = ix2 k j := fun k => by
    funext a; match a with | ⟨0, _⟩ => rfl | ⟨1, _⟩ => rfl
  have hi : Read.idx_main_v25 (Read.idx_main_v26 (ix2 e j)) = ix1 j := by
    funext a; match a with | ⟨0, _⟩ => rfl
  rw [Read.val_main_v27_apply, Read.val_main_v24_apply, Read.val_main_v26_apply, Read.val_main_v25_apply, hi]
  simp only [hl, hr, v23_at, v22_at]
  rfl

/-- The second activation at any index. -/
private theorem v28_at (i : S800000x128.Idx) :
    Read.val_main_v28 (F := Ideal) x0 x2 x3 x7 x8 x9 x10 i
      = Spec.silu (Read.val_main_v27 (F := Ideal) x0 x2 x3 x7 x8 x9 x10 i) := by
  rw [Read.val_main_v28_apply, Read.val_main_call1_v5_apply, Read.val_main_call1_v4_apply, Read.val_main_call1_cst_0_apply,
    Read.val_main_call1_v3_apply, Read.val_main_call1_v2_apply, Read.val_main_call1_cst_apply,
    Read.val_main_call1_v1_apply, Read.val_main_call1_v0_apply]
  exact silu_eq _

/-- The gate of edge `e`. -/
private theorem v30_at (e : Fin 800000) :
    Read.val_main_v30 (F := Ideal) x0 x2 x3 x7 x8 x9 x10 x11 (ix2 e (0 : Fin 1))
      = Spec.gate (fun k => Spec.silu (Spec.z2 (a1 x0 x2 x3 x7 x8 e) (Spec.m2 x9) (Spec.m1 x10) k)) (Spec.col0 x11) := by
  have hl : ∀ k : Fin 128, Read.lidx_main_v29 (ix2 e (0 : Fin 1)) k = ix2 e k := fun k => by
    funext a; match a with | ⟨0, _⟩ => rfl | ⟨1, _⟩ => rfl
  have hr : ∀ k : Fin 128, Read.ridx_main_v29 (ix2 e (0 : Fin 1)) k = ix2 k (0 : Fin 1) := fun k => by
    funext a; match a with | ⟨0, _⟩ => rfl | ⟨1, _⟩ => rfl
  rw [Read.val_main_v30_apply, Read.val_main_v29_apply]
  simp only [hl, hr, v28_at, v27_at]
  rfl

/-- The translation of edge `e` at coordinate `q`. -/
private theorem v34_at (e : Fin 800000) (q : Fin 3) :
    Read.val_main_v34 (F := Ideal) x0 x2 x3 x4 x7 x8 x9 x10 x11 (ix2 e q)
      = Spec.trans Spec.rowClamp (Spec.m2 x0) (Spec.m2 x2) (Spec.m2 x3) (Spec.m2 x4) (Spec.m2 x7) (Spec.m1 x8) (Spec.m2 x9)
          (Spec.m1 x10) (Spec.col0 x11) e q := by
  have hi : Read.idx_main_v31 (ix2 e q) = ix2 e (0 : Fin 1) := by
    funext a; match a with | ⟨0, _⟩ => rfl | ⟨1, _⟩ => rfl
  rw [Read.val_main_v34_apply, Read.val_main_v32_apply, Read.val_main_v31_apply, hi, v30_at, Read.val_main_v33_apply,
    Read.val_main_cst_apply]
  rfl

/-- The scatter-add's record is the row scatter over 50000 nodes, 800000 edges, rows of width 3. -/
private theorem v37_at (i : Fin 50000) (q : Fin 3) :
    Read.val_main_v37 (F := Ideal) x0 x2 x3 x4 x7 x8 x9 x10 x11 (ix2 i q)
      = Spec.zero + ∑ e ∈ Finset.univ.filter (fun e : Fin 800000 => (x2 (ix2 (0 : Fin 2) e)).toInt = (i.val : Int)),
          Spec.trans Spec.rowClamp (Spec.m2 x0) (Spec.m2 x2) (Spec.m2 x3) (Spec.m2 x4) (Spec.m2 x7) (Spec.m1 x8) (Spec.m2 x9)
            (Spec.m1 x10) (Spec.col0 x11) e q := by
  unfold Read.val_main_v37
  have h := GS.scatterAdd_scatD_apply (N := 50000) (E := 800000) (D := 3)
    Cert.ReferenceIdeal.Gen.scatter_S50000x3_S800000x1_S800000x3_1_0_0_1_wf (Read.val_main_v35 (F := Ideal))
    (Read.val_main_v36 (F := Ideal) x2) (Read.val_main_v34 (F := Ideal) x0 x2 x3 x4 x7 x8 x9 x10 x11) i q
  refine h.trans ?_
  rw [Read.val_main_v35_apply, Read.val_main_cst_3_apply]
  simp only [v36_at, v34_at]
  rfl

end Edge2

/-- The reference computes the layer with rows fetched by wrap-then-clamp: its result array, as a function of its argument
    arrays, is `Spec.layerOf Spec.rowClamp` of them. -/
theorem ref_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S800000x16, .f32⟩ : BufTy).Contents (Elt Ideal))
    (x4 : (⟨S800000x3, .f32⟩ : BufTy).Contents (Elt Ideal)) (x5 : (⟨S50000x1, .f32⟩ : BufTy).Contents (Elt Ideal))
    (x7 : (⟨S272x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x1, .f32⟩ : BufTy).Contents (Elt Ideal)) :
    Cert.ReferenceIdeal.Read.val_main_v40 (F := Ideal) x0 x1 x2 x3 x4 x5 x7 x8 x9 x10 x11
      = Spec.layerOf Spec.rowClamp x0 x1 x2 x3 x4 x5 x7 x8 x9 x10 x11 := by
  funext i
  obtain ⟨a, q, rfl⟩ : ∃ (a : Fin 50000) (q : Fin 3), i = ix2 a q := ⟨i 0, i 1, eq_ix2 (n0 := 50000) (n1 := 3) i⟩
  have hi : Read.idx_main_v39 (ix2 a q) = ix2 a (0 : Fin 1) := by
    funext b; match b with | ⟨0, _⟩ => rfl | ⟨1, _⟩ => rfl
  rw [Read.val_main_v40_apply, Read.val_main_v38_apply, Read.val_main_v39_apply, hi, v37_at]
  rfl

end Cert.Proof.RefSide

end
-- ==== Proof.KPrefix.lean ====
import proofs.«406178_j12610023981468_1_alg».proof.Proof.Gen.KernelIdeal.Frame
import proofs.«406178_j12610023981468_1_alg».proof.Proof.Spec
import proofs.«406178_j12610023981468_1_alg».proof.Proof.LibGatherScatter
import Idealize.ShloMosaic.Lib.ValueIdx
import Idealize.ShloMosaic.Lib.ValueLayout
import Idealize.ShloMosaic.PureOps.Reduce

noncomputable section

namespace Cert.Proof.KPrefix

open Idealize.ShloMosaic Idealize.ShloMosaic.TcCoe Idealize.SL.Sem Idealize.ShloMosaic.ValueIdx Cert.KernelIdeal Cert.KernelIdeal.Gen Cert.Proof

variable (m : (ℓ : Loc nD τ sig) → Buf (Elt Ideal) ℓ) (c : Dev nD)

/-- The index words after the wrap: a negative word has 50000 added. -/
private def wrapV (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- The wrapped words as a one-column array. -/
private def colV (w : IVec S800000 32) : IVec S800000x1 32 :=
  broadcastInDim S800000x1 ![0] bcast_S800000_S800000x1_0 (wrapV w)

/-- The range test `0 ≤ w ≤ 49999` on the one-column array of wrapped words. -/
private def testV (w : IVec S800000 32) : IVec S800000x1 1 :=
  andi (cmpi .sge (colV w) (broadcastInDim S800000x1 ![] bcast_S_S800000x1 (constantI S_ 32 0#32)))
    (cmpi .sle (colV w) (broadcastInDim S800000x1 ![0, 1] bcast_S1x1_S800000x1_0_1
      (broadcastInDim S1x1 ![1] bcast_S1_S1x1_1 (constantI S1 32 49999#32))))

private theorem wrapV_apply (w : IVec S800000 32) (e : Fin 800000) : wrapV w (ix1 e) = Spec.wrap (w (ix1 e)) := rfl

private theorem colV_apply (w : IVec S800000 32) (e : Fin 800000) : colV w (ix2 e (0 : Fin 1)) = Spec.wrap (w (ix1 e)) := by
  unfold colV
  refine (broadcastInDim_apply _ _ _ _ (ix1 e) (fun a => match a with
    | ⟨0, _⟩ => by
      show e.val = if (800000 : ℕ) = 1 then 0 else e.val
      rw [if_neg (by decide)])).trans ?_
  exact wrapV_apply w e

private theorem testV_apply (w : IVec S800000 32) (e : Fin 800000) :
    testV w (ix2 e (0 : Fin 1)) = Spec.inb (Spec.wrap (w (ix1 e))) := by
  rw [← colV_apply]
  rfl

private theorem andi_one (b : BitVec 1) : IntOp.andi b 1#1 = b := by revert b; decide

private theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- A conjunction folded over one column from the bit 1 is that column's one bit. -/
private theorem reduce_one (x : IVec S800000x1 1) (c0 : IVec S_ 1) (e : Fin 800000) :
    Host.reduce IntOp.andi x c0 reducesTo_S800000x1_S800000_d1 h_S_ (ix1 e)
      = IntOp.andi (x (ix2 e (0 : Fin 1))) (c0 (Shape.Idx.first h_S_)) := by
  rw [Host.reduce_eq_fold_single IntOp.andi x c0 reducesTo_S800000x1_S800000_d1
    (by decide : S800000x1.Reduces [1] S800000) h_S_ (ix1 e)]
  refine (fold_fin_one IntOp.andi _ _).trans ?_
  refine congrArg (fun i => IntOp.andi (x i) _) (funext fun a => ?_)
  match a with
  | ⟨0, _⟩ => rfl
  | ⟨1, _⟩ => rfl

/-- The same at the program's own spelling of the element type. -/
private theorem reduce_one' {F : FTy → Type} [FloatOps F] (XX : BufTy.Contents (Elt F) ⟨S800000x1, .i1⟩) (CC : BufTy.Contents (Elt F) ⟨S_, .i1⟩) (e : Fin 800000) :
    Host.reduce (α := Elt F EltTy.i1) IntOp.andi XX CC Cert.KernelIdeal.Facts₀.reducesTo_S800000x1_S800000_d1 Cert.KernelIdeal.Facts₀.h_S_ (ix1 e)
      = IntOp.andi (XX (ix2 e (0 : Fin 1))) (CC (Shape.Idx.first Cert.KernelIdeal.Facts₀.h_S_)) :=
  reduce_one XX CC e

/-- Contents carried to a typed reference's buffer and back are the contents. -/
private theorem ofBuf_toBuf {Val : EltTy → Type} {T : BufTy} (x : StableHlo.TRef sig T) (v : T.Contents Val) :
    x.ofBuf (x.toBuf v) = v := by
  obtain ⟨r, h, h1, h2⟩ := x
  subst h
  rfl

private theorem row0_apply (ei : IVec S2x800000 32) (e : Fin 800000) :
    shapeCast S800000 (extractStridedSlice S1x800000 ![0, 0] ei slices_S2x800000_S1x800000_0_0) shapeCasts_S1x800000_S800000 (ix1 e)
      = ei (ix2 (0 : Fin 2) e) :=
  (shapeCast_1a_a_apply _ _ e).trans (extractStridedSlice_apply _ _ _ _ _ (fun a => match a with
    | ⟨0, _⟩ => by show (0 : ℕ) = 0 + 0; rfl
    | ⟨1, _⟩ => by show e.val = 0 + e.val; omega))

private theorem row1_apply (ei : IVec S2x800000 32) (e : Fin 800000) :
    shapeCast S800000 (extractStridedSlice S1x800000 ![1, 0] ei slices_S2x800000_S1x800000_1_0) shapeCasts_S1x800000_S800000 (ix1 e)
      = ei (ix2 (1 : Fin 2) e) :=
  (shapeCast_1a_a_apply _ _ e).trans (extractStridedSlice_apply _ _ _ _ _ (fun a => match a with
    | ⟨0, _⟩ => by show (1 : ℕ) = 1 + 0; rfl
    | ⟨1, _⟩ => by show e.val = 0 + e.val; omega))

set_option maxHeartbeats 400000 in
/-- The fetch of the source rows at an entry, over any float family: the gathered entry where the wrapped word is in
    range, the fill value elsewhere. -/
private theorem V4_pt {F : FTy → Type} [FloatOps F] (m : (ℓ : Loc nD τ sig) → Buf (Elt F) ℓ) (c : Dev nD) (e : Fin 800000) (k : Fin 128) :
    (V m c main_v4 : FVec F S800000x128 .f32) (ix2 e k)
      = Scalar.select (Spec.inb (Spec.wrap ((shapeCast S800000 (extractStridedSlice S1x800000 ![0, 0] (m (c, Proc.tc.devRef main_arg2)) slices_S2x800000_S1x800000_0_0) shapeCasts_S1x800000_S800000) (ix1 e))))
          ((m (c, Proc.tc.devRef main_arg0) : FVec F S50000x128 .f32) (ix2 (Spec.clampRow (Spec.wrap ((shapeCast S800000 (extractStridedSlice S1x800000 ![0, 0] (m (c, Proc.tc.devRef main_arg2)) slices_S2x800000_S1x800000_0_0) shapeCasts_S1x800000_S800000) (ix1 e)))) k))
          (FloatOps.ofBits .f32 0x7FC00000#32) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  generalize hM : Host.reduce IntOp.andi _ _ reducesTo_S800000x1_S800000_d1 h_S_ = M
  generalize hG : Host.gather gather_S50000x128_S800000x1_S800000x128_1_0_n_n_0_1_1128 _ _ = Gg
  generalize hXX : (StableHlo.TRef.of main_call0_v11 _ _ _).ofBuf _ = XX at hM
  generalize hCC : (StableHlo.TRef.of main_call0_c_3 _ _ _).ofBuf _ = CC at hM
  generalize hVV : (StableHlo.TRef.of main_call0_v5 _ _ _).ofBuf _ = VV at hG
  generalize hX0 : (StableHlo.TRef.of main_arg0 _ _ _).ofBuf _ = X0 at hG
  have eX : XX = testV (shapeCast S800000 (extractStridedSlice S1x800000 ![0, 0] (m (c, Proc.tc.devRef main_arg2)) slices_S2x800000_S1x800000_0_0) shapeCasts_S1x800000_S800000) := hXX.symm.trans rfl
  have eC : CC = constantI S_ 1 1#1 := hCC.symm.trans rfl
  have eV : VV = colV (shapeCast S800000 (extractStridedSlice S1x800000 ![0, 0] (m (c, Proc.tc.devRef main_arg2)) slices_S2x800000_S1x800000_0_0) shapeCasts_S1x800000_S800000) := hVV.symm.trans rfl
  have e0 : X0 = m (c, Proc.tc.devRef main_arg0) := hX0.symm.trans rfl
  clear hXX hCC hVV hX0
  subst eX eC eV e0
  have h1 := congrFun hM (ix1 e)
  have h2 := reduce_one' (F := F) (testV (shapeCast S800000 (extractStridedSlice S1x800000 ![0, 0] (m (c, Proc.tc.devRef main_arg2)) slices_S2x800000_S1x800000_0_0) shapeCasts_S1x800000_S800000)) (constantI S_ 1 1#1) e
  have h3 : Host.reduce (α := Elt F EltTy.i1) IntOp.andi (testV (shapeCast S800000 (extractStridedSlice S1x800000 ![0, 0] (m (c, Proc.tc.devRef main_arg2)) slices_S2x800000_S1x800000_0_0) shapeCasts_S1x800000_S800000)) (constantI S_ 1 1#1) Cert.KernelIdeal.Facts₀.reducesTo_S800000x1_S800000_d1 Cert.KernelIdeal.Facts₀.h_S_ (ix1 e) = M (ix1 e) := h1
  have pM : M (ix1 e) = Spec.inb (Spec.wrap ((shapeCast S800000 (extractStridedSlice S1x800000 ![0, 0] (m (c, Proc.tc.devRef main_arg2)) slices_S2x800000_S1x800000_0_0) shapeCasts_S1x800000_S800000) (ix1 e))) := by
    rw [← h3, h2, testV_apply]; exact andi_one _
  have g1 := congrFun hG (ix2 e k)
  have hd : gather_S50000x128_S800000x1_S800000x128_1_0_n_n_0_1_1128 = GS.gathD 50000 800000 128 gather_S50000x128_S800000x1_S800000x128_1_0_n_n_0_1_1128_wf := rfl
  rw [hd] at g1
  have g2 := GS.gather_gathD_apply (by decide : 0 < 50000) gather_S50000x128_S800000x1_S800000x128_1_0_n_n_0_1_1128_wf (m (c, Proc.tc.devRef main_arg0) : FVec F S50000x128 .f32) (colV (shapeCast S800000 (extractStridedSlice S1x800000 ![0, 0] (m (c, Proc.tc.devRef main_arg2)) slices_S2x800000_S1x800000_0_0) shapeCasts_S1x800000_S800000)) e k
  rw [colV_apply] at g2
  have pG : Gg (ix2 e k) = (m (c, Proc.tc.devRef main_arg0) : FVec F S50000x128 .f32) (ix2 (Spec.clampRow (Spec.wrap ((shapeCast S800000 (extractStridedSlice S1x800000 ![0, 0] (m (c, Proc.tc.devRef main_arg2)) slices_S2x800000_S1x800000_0_0) shapeCasts_S1x800000_S800000) (ix1 e)))) k) :=
    g1.symm.trans g2
  clear hM hG
  simp only [ofBuf_toBuf]
  generalize hY : (StableHlo.TRef.of main_v4 _ _ _).toBuf _ = Y
  have eY : (Y : FVec F S800000x128 .f32) = select (broadcastInDim S800000x128 ![0] bcast_S800000_S800000x128_0 M) Gg
      (broadcastInDim S800000x128 ![] bcast_S_S800000x128 (constant (F := F) S_ .f32 0x7FC00000#32)) := hY.symm.trans rfl
  clear hY
  subst eY
  unfold select
  beta_reduce
  rw [broadcastInDim_apply _ _ M (ix2 e k) (ix1 e) (fun a => match a with
    | ⟨0, _⟩ => by
      show e.val = if (800000 : ℕ) = 1 then 0 else e.val
      rw [if_neg (by decide)]), pM, pG]
  rfl

set_option maxHeartbeats 400000 in
/-- The fetch of the target rows at an entry, over any float family. -/
private theorem V5_pt {F : FTy → Type} [FloatOps F] (m : (ℓ : Loc nD τ sig) → Buf (Elt F) ℓ) (c : Dev nD) (e : Fin 800000) (k : Fin 128) :
    (V m c main_v5 : FVec F S800000x128 .f32) (ix2 e k)
      = Scalar.select (Spec.inb (Spec.wrap ((shapeCast S800000 (extractStridedSlice S1x800000 ![1, 0] (m (c, Proc.tc.devRef main_arg2)) slices_S2x800000_S1x800000_1_0) shapeCasts_S1x800000_S800000) (ix1 e))))
          ((m (c, Proc.tc.devRef main_arg0) : FVec F S50000x128 .f32) (ix2 (Spec.clampRow (Spec.wrap ((shapeCast S800000 (extractStridedSlice S1x800000 ![1, 0] (m (c, Proc.tc.devRef main_arg2)) slices_S2x800000_S1x800000_1_0) shapeCasts_S1x800000_S800000) (ix1 e)))) k))
          (FloatOps.ofBits .f32 0x7FC00000#32) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  generalize hM : Host.reduce IntOp.andi _ _ reducesTo_S800000x1_S800000_d1 h_S_ = M
  generalize hG : Host.gather gather_S50000x128_S800000x1_S800000x128_1_0_n_n_0_1_1128 _ _ = Gg
  generalize hXX : (StableHlo.TRef.of main_call1_v11 _ _ _).ofBuf _ = XX at hM
  generalize hCC : (StableHlo.TRef.of main_call1_c_3 _ _ _).ofBuf _ = CC at hM
  generalize hVV : (StableHlo.TRef.of main_call1_v5 _ _ _).ofBuf _ = VV at hG
  generalize hX0 : (StableHlo.TRef.of main_arg0 _ _ _).ofBuf _ = X0 at hG
  have eX : XX = testV (shapeCast S800000 (extractStridedSlice S1x800000 ![1, 0] (m (c, Proc.tc.devRef main_arg2)) slices_S2x800000_S1x800000_1_0) shapeCasts_S1x800000_S800000) := hXX.symm.trans rfl
  have eC : CC = constantI S_ 1 1#1 := hCC.symm.trans rfl
  have eV : VV = colV (shapeCast S800000 (extractStridedSlice S1x800000 ![1, 0] (m (c, Proc.tc.devRef main_arg2)) slices_S2x800000_S1x800000_1_0) shapeCasts_S1x800000_S800000) := hVV.symm.trans rfl
  have e0 : X0 = m (c, Proc.tc.devRef main_arg0) := hX0.symm.trans rfl
  clear hXX hCC hVV hX0
  subst eX eC eV e0
  have h1 := congrFun hM (ix1 e)
  have h2 := reduce_one' (F := F) (testV (shapeCast S800000 (extractStridedSlice S1x800000 ![1, 0] (m (c, Proc.tc.devRef main_arg2)) slices_S2x800000_S1x800000_1_0) shapeCasts_S1x800000_S800000)) (constantI S_ 1 1#1) e
  have h3 : Host.reduce (α := Elt F EltTy.i1) IntOp.andi (testV (shapeCast S800000 (extractStridedSlice S1x800000 ![1, 0] (m (c, Proc.tc.devRef main_arg2)) slices_S2x800000_S1x800000_1_0) shapeCasts_S1x800000_S800000)) (constantI S_ 1 1#1) Cert.KernelIdeal.Facts₀.reducesTo_S800000x1_S800000_d1 Cert.KernelIdeal.Facts₀.h_S_ (ix1 e) = M (ix1 e) := h1
  have pM : M (ix1 e) = Spec.inb (Spec.wrap ((shapeCast S800000 (extractStridedSlice S1x800000 ![1, 0] (m (c, Proc.tc.devRef main_arg2)) slices_S2x800000_S1x800000_1_0) shapeCasts_S1x800000_S800000) (ix1 e))) := by
    rw [← h3, h2, testV_apply]; exact andi_one _
  have g1 := congrFun hG (ix2 e k)
  have hd : gather_S50000x128_S800000x1_S800000x128_1_0_n_n_0_1_1128 = GS.gathD 50000 800000 128 gather_S50000x128_S800000x1_S800000x128_1_0_n_n_0_1_1128_wf := rfl
  rw [hd] at g1
  have g2 := GS.gather_gathD_apply (by decide : 0 < 50000) gather_S50000x128_S800000x1_S800000x128_1_0_n_n_0_1_1128_wf (m (c, Proc.tc.devRef main_arg0) : FVec F S50000x128 .f32) (colV (shapeCast S800000 (extractStridedSlice S1x800000 ![1, 0] (m (c, Proc.tc.devRef main_arg2)) slices_S2x800000_S1x800000_1_0) shapeCasts_S1x800000_S800000)) e k
  rw [colV_apply] at g2
  have pG : Gg (ix2 e k) = (m (c, Proc.tc.devRef main_arg0) : FVec F S50000x128 .f32) (ix2 (Spec.clampRow (Spec.wrap ((shapeCast S800000 (extractStridedSlice S1x800000 ![1, 0] (m (c, Proc.tc.devRef main_arg2)) slices_S2x800000_S1x800000_1_0) shapeCasts_S1x800000_S800000) (ix1 e)))) k) :=
    g1.symm.trans g2
  clear hM hG
  simp only [ofBuf_toBuf]
  generalize hY : (StableHlo.TRef.of main_v5 _ _ _).toBuf _ = Y
  have eY : (Y : FVec F S800000x128 .f32) = select (broadcastInDim S800000x128 ![0] bcast_S800000_S800000x128_0 M) Gg
      (broadcastInDim S800000x128 ![] bcast_S_S800000x128 (constant (F := F) S_ .f32 0x7FC00000#32)) := hY.symm.trans rfl
  clear hY
  subst eY
  unfold select
  beta_reduce
  rw [broadcastInDim_apply _ _ M (ix2 e k) (ix1 e) (fun a => match a with
    | ⟨0, _⟩ => by
      show e.val = if (800000 : ℕ) = 1 then 0 else e.val
      rw [if_neg (by decide)]), pM, pG]
  rfl

/-- The source rows as the region finds them: row `e` is the filling fetch of the feature table at the edge's source word. -/
theorem V_v4 (e : Fin 800000) (k : Fin 128) :
    V m c main_v4 (ix2 e k) = Spec.rowFill Spec.nan (Spec.m2 (m ((c.tc : Thread nD τ).loc main_arg0)))
      (m ((c.tc : Thread nD τ).loc main_arg2) (ix2 (0 : Fin 2) e)) k := by
  refine (V4_pt m c e k).trans ?_
  rw [row0_apply]
  rfl

/-- The target rows: the filling fetch at the edge's target word. -/
theorem V_v5 (e : Fin 800000) (k : Fin 128) :
    V m c main_v5 (ix2 e k) = Spec.rowFill Spec.nan (Spec.m2 (m ((c.tc : Thread nD τ).loc main_arg0)))
      (m ((c.tc : Thread nD τ).loc main_arg2) (ix2 (1 : Fin 2) e)) k := by
  refine (V5_pt m c e k).trans ?_
  rw [row1_apply]
  rfl

/-- The three row-blocks of `W1`. -/
theorem V_v6 (k j : Fin 128) : V m c main_v6 (ix2 k j) = Spec.W1r (Spec.m2 (m ((c.tc : Thread nD τ).loc main_arg7))) k j := by
  have h : (V m c main_v6 : S128x128.Idx → EReal) = extractStridedSlice S128x128 ![0, 0] (m (c, Proc.tc.devRef main_arg7)) slices_S272x128_S128x128_0_0 := by
    dsimp only [Gen.V, Gen.V0]
    simp only [Gen.hostOps0, Gen.hostOps0_1, Gen.hostOps0_2, Gen.hostOps0_3, List.flatten_cons, List.flatten_nil, List.append_nil, List.cons_append, List.nil_append]
    after_results
  rw [h]
  exact extractStridedSlice_apply _ _ _ _ _ (fun a => match a with
    | ⟨0, _⟩ => by show k.val = 0 + k.val; omega
    | ⟨1, _⟩ => by show j.val = 0 + j.val; omega)
theorem V_v7 (k j : Fin 128) : V m c main_v7 (ix2 k j) = Spec.W1c (Spec.m2 (m ((c.tc : Thread nD τ).loc main_arg7))) k j := by
  have h : (V m c main_v7 : S128x128.Idx → EReal) = extractStridedSlice S128x128 ![128, 0] (m (c, Proc.tc.devRef main_arg7)) slices_S272x128_S128x128_128_0 := by
    dsimp only [Gen.V, Gen.V0]
    simp only [Gen.hostOps0, Gen.hostOps0_1, Gen.hostOps0_2, Gen.hostOps0_3, List.flatten_cons, List.flatten_nil, List.append_nil, List.cons_append, List.nil_append]
    after_results
  rw [h]
  exact extractStridedSlice_apply _ _ _ _ _ (fun a => match a with
    | ⟨0, _⟩ => by show 128 + k.val = 128 + k.val; rfl
    | ⟨1, _⟩ => by show j.val = 0 + j.val; omega)
theorem V_v8 (k : Fin 16) (j : Fin 128) : V m c main_v8 (ix2 k j) = Spec.W1e (Spec.m2 (m ((c.tc : Thread nD τ).loc main_arg7))) k j := by
  have h : (V m c main_v8 : S16x128.Idx → EReal) = extractStridedSlice S16x128 ![256, 0] (m (c, Proc.tc.devRef main_arg7)) slices_S272x128_S16x128_256_0 := by
    dsimp only [Gen.V, Gen.V0]
    simp only [Gen.hostOps0, Gen.hostOps0_1, Gen.hostOps0_2, Gen.hostOps0_3, List.flatten_cons, List.flatten_nil, List.append_nil, List.cons_append, List.nil_append]
    after_results
  rw [h]
  exact extractStridedSlice_apply _ _ _ _ _ (fun a => match a with
    | ⟨0, _⟩ => by show 256 + k.val = 256 + k.val; rfl
    | ⟨1, _⟩ => by show j.val = 0 + j.val; omega)

/-- The two biases as one-row arrays. -/
theorem V_v9 (j : Fin 128) : V m c main_v9 (ix2 (0 : Fin 1) j) = m ((c.tc : Thread nD τ).loc main_arg8) (ix1 j) := by
  have h : (V m c main_v9 : S1x128.Idx → EReal) = shapeCast S1x128 (m (c, Proc.tc.devRef main_arg8)) shapeCasts_S128_S1x128 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_1a_apply _ _ 0 j
theorem V_v10 (j : Fin 128) : V m c main_v10 (ix2 (0 : Fin 1) j) = m ((c.tc : Thread nD τ).loc main_arg10) (ix1 j) := by
  have h : (V m c main_v10 : S1x128.Idx → EReal) = shapeCast S1x128 (m (c, Proc.tc.devRef main_arg10)) shapeCasts_S128_S1x128 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  exact shapeCast_a_1a_apply _ _ 0 j

/-- The source words as a vector: row 0 of the edge index. -/
theorem V_v1 (e : Fin 800000) : V m c main_v1 (ix1 e) = m ((c.tc : Thread nD τ).loc main_arg2) (ix2 (0 : Fin 2) e) := by
  have h : (V m c main_v1 : S800000.Idx → BitVec 32) = shapeCast S800000 (extractStridedSlice S1x800000 ![0, 0] (m (c, Proc.tc.devRef main_arg2)) slices_S2x800000_S1x800000_0_0) shapeCasts_S1x800000_S800000 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [h]
  refine (shapeCast_1a_a_apply _ _ e).trans ?_
  exact extractStridedSlice_apply _ _ _ _ _ (fun a => match a with
    | ⟨0, _⟩ => by show (0 : ℕ) = 0 + 0; rfl
    | ⟨1, _⟩ => by show e.val = 0 + e.val; omega)

end Cert.Proof.KPrefix

end
-- ==== Proof.KPayload.lean ====
import proofs.«406178_j12610023981468_1_alg».proof.Proof.Gen.KernelIdeal.Skeleton
import proofs.«406178_j12610023981468_1_alg».proof.Proof.Spec
import Idealize.ShloMosaic.Lib.ValueIdx
import Idealize.ShloMosaic.Lib.Pipeline.Value
import Idealize.ShloMosaic.PureOps.Ideal.Laws

noncomputable section

namespace Cert.Proof.KPayload

open Idealize.ShloMosaic Idealize.ShloMosaic.ValueIdx Cert.KernelIdeal Cert.KernelIdeal.Gen Cert.Proof
open scoped BigOperators

/-! The product `S4000x128 · S128x128` read at an index. -/

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, j)` of the product into a zero accumulator is `Σ_k l(p,k) · r(k,j)`. -/
theorem matmulA_apply {φ₁ φ₂ : FTy} (l : FVec Ideal S4000x128 φ₁) (r : FVec Ideal S128x128 φ₂) (p : Fin 4000) (j : Fin 128) :
    matmul (F := Ideal) dot_S4000x128_S128x128_S4000x128_1_0_0_1_n_n none l r (constant S4000x128 .f32 0x00000000#32) (ix2 p j)
      = ∑ k : Fin 128, l (ix2 p k) * r (ix2 k j) := by
  show FloatOps.matmul (F := Ideal) dot_S4000x128_S128x128_S4000x128_1_0_0_1_n_n none l r (constant S4000x128 .f32 0x00000000#32) (ix2 p j) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-! The product `S4000x16 · S16x128` read at an index. -/

theorem lhsB_0 (i : S4000x128.Idx) (q : dot_S4000x16_S16x128_S4000x128_1_0_0_1_n_n.contr.Idx) :
    (dot_S4000x16_S16x128_S4000x128_1_0_0_1_n_n.lhsIdx i q 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
theorem lhsB_1 (i : S4000x128.Idx) (q : dot_S4000x16_S16x128_S4000x128_1_0_0_1_n_n.contr.Idx) :
    (dot_S4000x16_S16x128_S4000x128_1_0_0_1_n_n.lhsIdx i q 1).val = (q ⟨0, by decide⟩).val :=
  dot_S4000x16_S16x128_S4000x128_1_0_0_1_n_n.lhsIdx_val_of_single rfl i q
theorem rhsB_0 (i : S4000x128.Idx) (q : dot_S4000x16_S16x128_S4000x128_1_0_0_1_n_n.contr.Idx) :
    (dot_S4000x16_S16x128_S4000x128_1_0_0_1_n_n.rhsIdx i q 0).val = (q ⟨0, by decide⟩).val :=
  dot_S4000x16_S16x128_S4000x128_1_0_0_1_n_n.rhsIdx_val_of_single rfl i q
theorem rhsB_1 (i : S4000x128.Idx) (q : dot_S4000x16_S16x128_S4000x128_1_0_0_1_n_n.contr.Idx) :
    (dot_S4000x16_S16x128_S4000x128_1_0_0_1_n_n.rhsIdx i q 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- Entry `(p, j)` of the product into a zero accumulator is `Σ_k l(p,k) · r(k,j)`. -/
theorem matmulB_apply {φ₁ φ₂ : FTy} (l : FVec Ideal S4000x16 φ₁) (r : FVec Ideal S16x128 φ₂) (p : Fin 4000) (j : Fin 128) :
    matmul (F := Ideal) dot_S4000x16_S16x128_S4000x128_1_0_0_1_n_n none l r (constant S4000x128 .f32 0x00000000#32) (ix2 p j)
      = ∑ k : Fin 16, l (ix2 p k) * r (ix2 k j) := by
  show FloatOps.matmul (F := Ideal) dot_S4000x16_S16x128_S4000x128_1_0_0_1_n_n none l r (constant S4000x128 .f32 0x00000000#32) (ix2 p j) = _
  rw [Ideal.matmul_constant_zero_apply, ← Equiv.sum_comp (ValueIdx.contrEquiv1 dot_S4000x16_S16x128_S4000x128_1_0_0_1_n_n 16 rfl rfl).symm]
  refine Finset.sum_congr rfl fun k _ => ?_
  have hk := ValueIdx.contrEquiv1_symm_val dot_S4000x16_S16x128_S4000x128_1_0_0_1_n_n 16 rfl rfl k
  have el : dot_S4000x16_S16x128_S4000x128_1_0_0_1_n_n.lhsIdx (ix2 p j) ((ValueIdx.contrEquiv1 dot_S4000x16_S16x128_S4000x128_1_0_0_1_n_n 16 rfl rfl).symm k) = ix2 p k := funext fun a => Fin.ext (by
    match a with
    | ⟨0, _⟩ => exact lhsB_0 _ _
    | ⟨1, _⟩ => exact (lhsB_1 _ _).trans hk)
  have er : dot_S4000x16_S16x128_S4000x128_1_0_0_1_n_n.rhsIdx (ix2 p j) ((ValueIdx.contrEquiv1 dot_S4000x16_S16x128_S4000x128_1_0_0_1_n_n 16 rfl rfl).symm k) = ix2 k j := funext fun a => Fin.ext (by
    match a with
    | ⟨0, _⟩ => exact (rhsB_0 _ _).trans hk
    | ⟨1, _⟩ => exact rhsB_1 _ _)
  rw [el, er]

/-! The product `S4000x128 · S128x1` read at an index. -/

theorem lhsC_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhsC_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhsC_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhsC_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- Entry `(p, j)` of the product into a zero accumulator is `Σ_k l(p,k) · r(k,j)`. -/
theorem matmulC_apply {φ₁ φ₂ : FTy} (l : FVec Ideal S4000x128 φ₁) (r : FVec Ideal S128x1 φ₂) (p : Fin 4000) (j : Fin 1) :
    matmul (F := Ideal) dot_S4000x128_S128x1_S4000x1_1_0_0_1_n_n none l r (constant S4000x1 .f32 0x00000000#32) (ix2 p j)
      = ∑ k : Fin 128, l (ix2 p k) * r (ix2 k j) := by
  show FloatOps.matmul (F := Ideal) dot_S4000x128_S128x1_S4000x1_1_0_0_1_n_n none l r (constant S4000x1 .f32 0x00000000#32) (ix2 p j) = _
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p j) ((ValueIdx.contrEquiv1 dot_S4000x128_S128x1_S4000x1_1_0_0_1_n_n 128 rfl rfl).symm k) = ix2 p k := funext fun a => Fin.ext (by
    match a with
    | ⟨0, _⟩ => exact lhsC_0 _ _
    | ⟨1, _⟩ => exact (lhsC_1 _ _).trans hk)
  have er : dot_S4000x128_S128x1_S4000x1_1_0_0_1_n_n.rhsIdx (ix2 p j) ((ValueIdx.contrEquiv1 dot_S4000x128_S128x1_S4000x1_1_0_0_1_n_n 128 rfl rfl).symm k) = ix2 k j := funext fun a => Fin.ext (by
    match a with
    | ⟨0, _⟩ => exact (rhsC_0 _ _).trans hk
    | ⟨1, _⟩ => exact rhsC_1 _ _)
  rw [el, er]

/-! Broadcasts read at an index. -/

/-- A `[1,128]` row broadcast to `[4000,128]`: entry `(p, j)` is entry `(0, j)` of the row. -/
theorem bcastRow_apply {α : Type} (x : S1x128.Idx → α) (p : Fin 4000) (j : Fin 128) :
    broadcastTo S4000x128 x broadcasts_S1x128_S4000x128 (ix2 p j) = x (ix2 (0 : Fin 1) j) := by
  refine broadcastTo_apply x _ (ix2 p j) (ix2 (0 : Fin 1) j) fun a => ?_
  match a with
  | ⟨0, _⟩ => rfl
  | ⟨1, _⟩ => rfl

/-- A `[4000,1]` column broadcast to `[4000,3]`: entry `(p, q)` is entry `(p, 0)` of the column. -/
theorem bcastCol_apply {α : Type} (x : S4000x1.Idx → α) (p : Fin 4000) (q : Fin 3) :
    broadcastTo S4000x3 x broadcasts_S4000x1_S4000x3 (ix2 p q) = x (ix2 p (0 : Fin 1)) := by
  refine broadcastTo_apply x _ (ix2 p q) (ix2 p (0 : Fin 1)) fun a => ?_
  match a with
  | ⟨0, _⟩ => rfl
  | ⟨1, _⟩ => rfl

/-! Pointwise functions read at an index. -/

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

/-! The stages of the payload. -/

/-- The first layer before its activation, as the body computes it (three products into zero accumulators, added left
    to right, then the bias row), at `(p, k)`. -/
theorem pre1_apply (v0 v3 : Vec Ideal S4000x128 .f32) (v6 : Vec Ideal S4000x16 .f32) (v8 v11 : Vec Ideal S128x128 .f32)
    (v14 : Vec Ideal S16x128 .f32) (v22 : Vec Ideal S1x128 .f32) (p : Fin 4000) (k : Fin 128) :
    addf (F := Ideal)
      (addf
        (addf
          (matmul dot_S4000x128_S128x128_S4000x128_1_0_0_1_n_n none (truncf .bf16 v0 bitsLt_bf16_f32)
            (truncf .bf16 v8 bitsLt_bf16_f32) (constant S4000x128 .f32 0x00000000#32))
          (matmul dot_S4000x128_S128x128_S4000x128_1_0_0_1_n_n none (truncf .bf16 v3 bitsLt_bf16_f32)
            (truncf .bf16 v11 bitsLt_bf16_f32) (constant S4000x128 .f32 0x00000000#32)))
        (matmul dot_S4000x16_S16x128_S4000x128_1_0_0_1_n_n none (truncf .bf16 v6 bitsLt_bf16_f32)
          (truncf .bf16 v14 bitsLt_bf16_f32) (constant S4000x128 .f32 0x00000000#32)))
      (broadcastTo S4000x128 v22 broadcasts_S1x128_S4000x128) (ix2 p k)
      = Spec.z1 (fun k' => v0 (ix2 p k')) (fun k' => v3 (ix2 p k')) (fun k' => v6 (ix2 p k'))
          (fun k' j' => v8 (ix2 k' j')) (fun k' j' => v11 (ix2 k' j')) (fun k' j' => v14 (ix2 k' j')) (fun j' => v22 (ix2 (0 : Fin 1) j')) k := by
  rw [addf_apply, addf_apply, addf_apply, matmulA_apply, matmulA_apply, matmulB_apply, bcastRow_apply]
  rfl

/-- The second layer before its activation, as the body computes it, at `(p, j)`. -/
theorem pay2_apply (v0 v3 : Vec Ideal S4000x128 .f32) (v6 : Vec Ideal S4000x16 .f32) (v8 v11 : Vec Ideal S128x128 .f32)
    (v14 : Vec Ideal S16x128 .f32) (v22 : Vec Ideal S1x128 .f32) (v28 : Vec Ideal S128x128 .f32) (v32 : Vec Ideal S1x128 .f32)
    (p : Fin 4000) (j : Fin 128) :
    k0_pay2 (F := Ideal) v0 v3 v6 v8 v11 v14 v22 v28 v32 (ix2 p j)
      = Spec.z2 (fun k => Spec.silu (Spec.z1 (fun k' => v0 (ix2 p k')) (fun k' => v3 (ix2 p k')) (fun k' => v6 (ix2 p k'))
          (fun k' j' => v8 (ix2 k' j')) (fun k' j' => v11 (ix2 k' j')) (fun k' j' => v14 (ix2 k' j')) (fun j' => v22 (ix2 (0 : Fin 1) j')) k))
          (fun k j' => v28 (ix2 k j')) (fun j' => v32 (ix2 (0 : Fin 1) j')) j := by
  unfold k0_pay2
  simp only [shapeCast_self]
  rw [addf_apply, matmulA_apply, bcastRow_apply]
  unfold Spec.z2
  refine congrArg (· + v32 (ix2 (0 : Fin 1) j)) (Finset.sum_congr rfl fun k _ => ?_)
  rw [truncf_apply, truncf_apply, mulf_apply, logistic_apply, pre1_apply]
  rfl

/-- The second activation's logistic factor is the logistic of the second layer, pointwise. -/
theorem pay3_apply (v0 v3 : Vec Ideal S4000x128 .f32) (v6 : Vec Ideal S4000x16 .f32) (v8 v11 : Vec Ideal S128x128 .f32)
    (v14 : Vec Ideal S16x128 .f32) (v22 : Vec Ideal S1x128 .f32) (v28 : Vec Ideal S128x128 .f32) (v32 : Vec Ideal S1x128 .f32)
    (i : S4000x128.Idx) :
    k0_pay3 (F := Ideal) v0 v3 v6 v8 v11 v14 v22 v28 v32 i
      = Ideal.logistic (k0_pay2 (F := Ideal) v0 v3 v6 v8 v11 v14 v22 v28 v32 i) := by
  unfold k0_pay3
  exact logistic_apply (k0_pay2 (F := Ideal) v0 v3 v6 v8 v11 v14 v22 v28 v32) i

/-- The stored value from the second layer `a` and its logistic factor `s`: the coordinate difference times
    `tanh (Σ_k (a·s)(p,k) · W3 k)` times 15. -/
theorem pay1_apply (v35 v36 : FVec Ideal S4000x128 .f32) (v38 : Vec Ideal S128x1 .f32) (v43 : Vec Ideal S4000x3 .f32)
    (p : Fin 4000) (q : Fin 3) :
    k0_pay1 (F := Ideal) v35 v36 v38 v43 (ix2 p q)
      = v43 (ix2 p q) * Ideal.tanh (∑ k : Fin 128, (v35 (ix2 p k) * v36 (ix2 p k)) * v38 (ix2 k (0 : Fin 1))) * Spec.fifteen := by
  unfold k0_pay1
  simp only [mulf_apply]
  rw [bcastCol_apply, tanh_apply, matmulC_apply]
  rfl

/-- The body's one stored value at row `p`, column `q` of the block: the edge perceptron of row `p` of the three
    per-edge blocks and the weights, times the coordinate difference at `(p, q)`, times 15. -/
theorem pay_apply (v0 v3 : Vec Ideal S4000x128 .f32) (v6 : Vec Ideal S4000x16 .f32) (v8 v11 : Vec Ideal S128x128 .f32)
    (v14 : Vec Ideal S16x128 .f32) (v22 : Vec Ideal S1x128 .f32) (v28 : Vec Ideal S128x128 .f32) (v32 : Vec Ideal S1x128 .f32)
    (v38 : Vec Ideal S128x1 .f32) (v43 : Vec Ideal S4000x3 .f32) (p : Fin 4000) (q : Fin 3) :
    k0_pay1 (F := Ideal) (k0_pay2 v0 v3 v6 v8 v11 v14 v22 v28 v32) (k0_pay3 v0 v3 v6 v8 v11 v14 v22 v28 v32) v38 v43 (ix2 p q)
      = Spec.edge (fun k => v0 (ix2 p k)) (fun k => v3 (ix2 p k)) (fun k => v6 (ix2 p k)) (v43 (ix2 p q))
          (fun k j => v8 (ix2 k j)) (fun k j => v11 (ix2 k j)) (fun k j => v14 (ix2 k j)) (fun j => v22 (ix2 (0 : Fin 1) j))
          (fun k j => v28 (ix2 k j)) (fun j => v32 (ix2 (0 : Fin 1) j)) (fun k => v38 (ix2 k (0 : Fin 1))) := by
  refine (pay1_apply _ _ v38 v43 p q).trans ?_
  unfold Spec.edge Spec.gate
  refine congrArg (fun s => v43 (ix2 p q) * Ideal.tanh s * Spec.fifteen) (Finset.sum_congr rfl fun k _ => ?_)
  rw [pay3_apply, pay2_apply]
  rfl

end Cert.Proof.KPayload

end
-- ==== Proof.KArray.lean ====
import proofs.«406178_j12610023981468_1_alg».proof.Proof.Gen.KernelIdeal.Frame
import proofs.«406178_j12610023981468_1_alg».proof.Proof.Spec
import proofs.«406178_j12610023981468_1_alg».proof.Proof.KPayload
import Idealize.ShloMosaic.Lib.ValueIdx
import Idealize.ShloMosaic.Lib.Pipeline.Value

noncomputable section

namespace Cert.Proof.KArray

open Idealize.ShloMosaic Idealize.ShloMosaic.TcCoe Idealize.SL.Sem Idealize.ShloMosaic.ValueIdx Cert.KernelIdeal Cert.KernelIdeal.Gen Cert.Proof

variable (m : (ℓ : Loc nD τ sig) → Buf (Elt Ideal) ℓ) (c : Dev nD)

/-- Zero offsets, however spelt. -/
private theorem hz : (![0, 0] : Fin 2 → Nat) = fun _ => 0 := funext fun a => by fin_cases a <;> rfl

/-- The grid has 200 points. -/
private theorem grid_points : cfg0.N = 200 := by decide

/-- The index maps of the per-edge windows and of the output, decided over the grid: block `(t, 0)` at point `t`. -/
private theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0 :=
  (by decide +kernel : ∀ t : Fin grid0.N, _)

/-- The index maps of the weight windows, decided over the grid: block `(0, 0)` at every point. -/
private theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Block `t` of window 0's [800000, 128] array is its rows `4000 t … 4000 t + 3999`, all columns. -/
private theorem rows0 (f : S800000x128.Idx → EReal) (t : Fin cfg0.N) (ht : t.val < 200) (p : Fin 4000) (k : Fin 128) :
    ((cfg0.win 0).blk t).view.read (Elt Ideal) f (ix2 p k) = f (ix2 (⟨t.val * 4000 + p.val, by omega⟩ : Fin 800000) k) := by
  obtain ⟨a0, a0', a1, a1', a2, a2', a3, a3', a11, a11'⟩ := idx_moving t
  show f _ = f _
  refine congrArg f ?_
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- Block `t` of window 1's [800000, 128] array is its rows `4000 t … 4000 t + 3999`, all columns. -/
private theorem rows1 (f : S800000x128.Idx → EReal) (t : Fin cfg0.N) (ht : t.val < 200) (p : Fin 4000) (k : Fin 128) :
    ((cfg0.win 1).blk t).view.read (Elt Ideal) f (ix2 p k) = f (ix2 (⟨t.val * 4000 + p.val, by omega⟩ : Fin 800000) k) := by
  obtain ⟨a0, a0', a1, a1', a2, a2', a3, a3', a11, a11'⟩ := idx_moving t
  show f _ = f _
  refine congrArg f ?_
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

/-- Block `t` of window 2's [800000, 16] array is its rows `4000 t … 4000 t + 3999`, all columns. -/
private theorem rows2 (f : S800000x16.Idx → EReal) (t : Fin cfg0.N) (ht : t.val < 200) (p : Fin 4000) (k : Fin 16) :
    ((cfg0.win 2).blk t).view.read (Elt Ideal) f (ix2 p k) = f (ix2 (⟨t.val * 4000 + p.val, by omega⟩ : Fin 800000) k) := by
  obtain ⟨a0, a0', a1, a1', a2, a2', a3, a3', a11, a11'⟩ := idx_moving t
  show f _ = f _
  refine congrArg f ?_
  funext a; apply Fin.ext
  match a with
  | ⟨0, _⟩ => show win0_2.index t (0 : Fin 2) * 4000 + 1 * p.val = t.val * 4000 + p.val; omega
  | ⟨1, _⟩ => show win0_2.index t (1 : Fin 2) * 16 + 1 * k.val = k.val; omega

/-- Block `t` of window 3's [800000, 3] array is its rows `4000 t … 4000 t + 3999`, all columns. -/
private theorem rows3 (f : S800000x3.Idx → EReal) (t : Fin cfg0.N) (ht : t.val < 200) (p : Fin 4000) (k : Fin 3) :
    ((cfg0.win 3).blk t).view.read (Elt Ideal) f (ix2 p k) = f (ix2 (⟨t.val * 4000 + p.val, by omega⟩ : Fin 800000) k) := by
  obtain ⟨a0, a0', a1, a1', a2, a2', a3, a3', a11, a11'⟩ := idx_moving t
  show f _ = f _
  refine congrArg f ?_
  funext a; apply Fin.ext
  match a with
  | ⟨0, _⟩ => show win0_3.index t (0 : Fin 2) * 4000 + 1 * p.val = t.val * 4000 + p.val; omega
  | ⟨1, _⟩ => show win0_3.index t (1 : Fin 2) * 3 + 1 * k.val = k.val; omega

/-- Block `t` of window 11's [800000, 3] array is its rows `4000 t … 4000 t + 3999`, all columns. -/
private theorem rows11 (f : S800000x3.Idx → EReal) (t : Fin cfg0.N) (ht : t.val < 200) (p : Fin 4000) (k : Fin 3) :
    ((cfg0.win 11).blk t).view.read (Elt Ideal) f (ix2 p k) = f (ix2 (⟨t.val * 4000 + p.val, by omega⟩ : Fin 800000) k) := by
  obtain ⟨a0, a0', a1, a1', a2, a2', a3, a3', a11, a11'⟩ := idx_moving t
  show f _ = f _
  refine congrArg f ?_
  funext a; apply Fin.ext
  match a with
  | ⟨0, _⟩ => show win0_11.index t (0 : Fin 2) * 4000 + 1 * p.val = t.val * 4000 + p.val; omega
  | ⟨1, _⟩ => show win0_11.index t (1 : Fin 2) * 3 + 1 * k.val = k.val; omega

/-- The one block of window 4's [128, 128] array is the array, at every point. -/
private theorem whole4 (f : S128x128.Idx → EReal) (t : Fin cfg0.N) (k : Fin 128) (j : Fin 128) :
    ((cfg0.win 4).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- The one block of window 5's [128, 128] array is the array, at every point. -/
private theorem whole5 (f : S128x128.Idx → EReal) (t : Fin cfg0.N) (k : Fin 128) (j : Fin 128) :
    ((cfg0.win 5).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_5.index t (0 : Fin 2) * 128 + 1 * k.val = k.val; omega
  | ⟨1, _⟩ => show win0_5.index t (1 : Fin 2) * 128 + 1 * j.val = j.val; omega

/-- The one block of window 6's [16, 128] array is the array, at every point. -/
private theorem whole6 (f : S16x128.Idx → EReal) (t : Fin cfg0.N) (k : Fin 16) (j : Fin 128) :
    ((cfg0.win 6).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_6.index t (0 : Fin 2) * 16 + 1 * k.val = k.val; omega
  | ⟨1, _⟩ => show win0_6.index t (1 : Fin 2) * 128 + 1 * j.val = j.val; omega

/-- The one block of window 7's [1, 128] array is the array, at every point. -/
private theorem whole7 (f : S1x128.Idx → EReal) (t : Fin cfg0.N) (k : Fin 1) (j : Fin 128) :
    ((cfg0.win 7).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_7.index t (0 : Fin 2) * 1 + 1 * k.val = k.val; omega
  | ⟨1, _⟩ => show win0_7.index t (1 : Fin 2) * 128 + 1 * j.val = j.val; omega

/-- The one block of window 8's [128, 128] array is the array, at every point. -/
private theorem whole8 (f : S128x128.Idx → EReal) (t : Fin cfg0.N) (k : Fin 128) (j : Fin 128) :
    ((cfg0.win 8).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_8.index t (0 : Fin 2) * 128 + 1 * k.val = k.val; omega
  | ⟨1, _⟩ => show win0_8.index t (1 : Fin 2) * 128 + 1 * j.val = j.val; omega

/-- The one block of window 9's [1, 128] array is the array, at every point. -/
private theorem whole9 (f : S1x128.Idx → EReal) (t : Fin cfg0.N) (k : Fin 1) (j : Fin 128) :
    ((cfg0.win 9).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_9.index t (0 : Fin 2) * 1 + 1 * k.val = k.val; omega
  | ⟨1, _⟩ => show win0_9.index t (1 : Fin 2) * 128 + 1 * j.val = j.val; omega

/-- The one block of window 10's [128, 1] array is the array, at every point. -/
private theorem whole10 (f : S128x1.Idx → EReal) (t : Fin cfg0.N) (k : Fin 128) (j : Fin 1) :
    ((cfg0.win 10).blk t).view.read (Elt Ideal) f (ix2 k j) = f (ix2 k j) := by
  obtain ⟨c4, c4', c5, c5', c6, c6', c7, c7', c8, c8', c9, c9', c10, c10'⟩ := idx_weights t
  show f _ = f _
  refine congrArg f ?_
  funext a; apply Fin.ext
  match a with
  | ⟨0, _⟩ => show win0_10.index t (0 : Fin 2) * 128 + 1 * k.val = k.val; omega
  | ⟨1, _⟩ => show win0_10.index t (1 : Fin 2) * 1 + 1 * j.val = j.val; omega

/-- The edge perceptron of row `e` of the per-edge arrays as the region finds them, coordinate `q`. -/
private def rowEdge (e : Fin 800000) (q : Fin 3) : EReal :=
  Spec.edge (fun k => V m c main_v4 (ix2 e k)) (fun k => V m c main_v5 (ix2 e k)) (fun k => V m c main_arg3 (ix2 e k))
          (V m c main_arg4 (ix2 e q)) (fun k j => V m c main_v6 (ix2 k j)) (fun k j => V m c main_v7 (ix2 k j))
          (fun k j => V m c main_v8 (ix2 k j)) (fun j => V m c main_v9 (ix2 (0 : Fin 1) j)) (fun k j => V m c main_arg9 (ix2 k j))
          (fun j => V m c main_v10 (ix2 (0 : Fin 1) j)) (fun k => V m c main_arg11 (ix2 k (0 : Fin 1)))

/-- The whole output array as one function of its index: entry `(e, q)` is `rowEdge e q`. -/
private def edgeArr : S800000x3.Idx → EReal := fun i => rowEdge m c (i 0) (i 1)

private theorem edgeArr_apply (e : Fin 800000) (q : Fin 3) : edgeArr m c (ix2 e q) = rowEdge m c e q := rfl

/-- The stored value at row `p`, column `q` of a block whose inputs are rows `4000 b + p` of the per-edge arrays and
    the whole weight arrays is the edge perceptron of row `4000 b + p`. -/
private theorem point_eq (x0 x1 : Vec Ideal S4000x128 .f32) (x2 : Vec Ideal S4000x16 .f32) (x3 : Vec Ideal S4000x3 .f32)
    (x4 x5 : Vec Ideal S128x128 .f32) (x6 : Vec Ideal S16x128 .f32) (x7 : Vec Ideal S1x128 .f32)
    (x8 : Vec Ideal S128x128 .f32) (x9 : Vec Ideal S1x128 .f32) (x10 : Vec Ideal S128x1 .f32)
    (b : Nat) (hb : b < 200)
    (h0 : ∀ (p : Fin 4000) (k : Fin 128), x0 (ix2 p k) = V m c main_v4 (ix2 (⟨b * 4000 + p.val, by omega⟩ : Fin 800000) k))
    (h1 : ∀ (p : Fin 4000) (k : Fin 128), x1 (ix2 p k) = V m c main_v5 (ix2 (⟨b * 4000 + p.val, by omega⟩ : Fin 800000) k))
    (h2 : ∀ (p : Fin 4000) (k : Fin 16), x2 (ix2 p k) = V m c main_arg3 (ix2 (⟨b * 4000 + p.val, by omega⟩ : Fin 800000) k))
    (h3 : ∀ (p : Fin 4000) (k : Fin 3), x3 (ix2 p k) = V m c main_arg4 (ix2 (⟨b * 4000 + p.val, by omega⟩ : Fin 800000) k))
    (h4 : ∀ (k j : Fin 128), x4 (ix2 k j) = V m c main_v6 (ix2 k j))
    (h5 : ∀ (k j : Fin 128), x5 (ix2 k j) = V m c main_v7 (ix2 k j))
    (h6 : ∀ (k : Fin 16) (j : Fin 128), x6 (ix2 k j) = V m c main_v8 (ix2 k j))
    (h7 : ∀ (k : Fin 1) (j : Fin 128), x7 (ix2 k j) = V m c main_v9 (ix2 k j))
    (h8 : ∀ (k j : Fin 128), x8 (ix2 k j) = V m c main_arg9 (ix2 k j))
    (h9 : ∀ (k : Fin 1) (j : Fin 128), x9 (ix2 k j) = V m c main_v10 (ix2 k j))
    (h10 : ∀ (k : Fin 128) (j : Fin 1), x10 (ix2 k j) = V m c main_arg11 (ix2 k j))
    (p : Fin 4000) (q : Fin 3) :
    k0_pay1 (F := Ideal) (k0_pay2 x0 x1 x2 x4 x5 x6 x7 x8 x9) (k0_pay3 x0 x1 x2 x4 x5 x6 x7 x8 x9) x10 x3 (ix2 p q)
      = rowEdge m c ⟨b * 4000 + p.val, by omega⟩ q := by
  refine (KPayload.pay_apply x0 x1 x2 x4 x5 x6 x7 x8 x9 x10 x3 p q).trans ?_
  unfold rowEdge
  simp only [h0, h1, h2, h3, h4, h5, h6, h7, h8, h9, h10]

/-- The output window is not cut: what is written back is all of what the body left. -/
private theorem cut_out (t : Fin cfg0.N) (X : Vec Ideal S4000x3 .f32) : (cfg0.win 11).cut (grid0.coords t) X = X := rfl

/-- WHAT POINT `t` WRITES BACK is block `t` of `edgeArr`. -/
private theorem flushed_eq (t : Fin cfg0.N) :
    (dats m 0 c).flushed 11 t = ((cfg0.win 11).blk t).view.read (Elt Ideal) (edgeArr m c) := by
  show (cfg0.win 11).cut (grid0.coords t) ((dats m 0 c).after 11 t) = _
  rw [after0_11]
  refine (cut_out t _).trans ?_
  unfold out0_11
  rw [View.canon_unit_zero hz]
  simp only [View.ld_unit_zero (S := S4000x128) hz, View.ld_unit_zero (S := S4000x16) hz, View.ld_unit_zero (S := S128x128) hz,
    View.ld_unit_zero (S := S16x128) hz, View.ld_unit_zero (S := S1x128) hz, View.ld_unit_zero (S := S128x1) hz, View.ld_unit_zero (S := S4000x3) hz]
  have ht : t.val < 200 := t.isLt
  funext y
  rw [eq_ix2 y]
  refine (point_eq m c (iblk m c 0 t) (iblk m c 1 t) (iblk m c 2 t) (iblk m c 3 t) (iblk m c 4 t) (iblk m c 5 t) (iblk m c 6 t)
    (iblk m c 7 t) (iblk m c 8 t) (iblk m c 9 t) (iblk m c 10 t) t.val ht ?_ ?_ ?_ ?_ ?_ ?_ ?_ ?_ ?_ ?_ ?_ (y 0) (y 1)).trans ?_
  · exact fun p k => rows0 (V m c main_v4) t ht p k
  · exact fun p k => rows1 (V m c main_v5) t ht p k
  · exact fun p k => rows2 (V m c main_arg3) t ht p k
  · exact fun p k => rows3 (V m c main_arg4) t ht p k
  · exact fun k j => whole4 (V m c main_v6) t k j
  · exact fun k j => whole5 (V m c main_v7) t k j
  · exact fun k j => whole6 (V m c main_v8) t k j
  · exact fun k j => whole7 (V m c main_v9) t k j
  · exact fun k j => whole8 (V m c main_arg9) t k j
  · exact fun k j => whole9 (V m c main_v10) t k j
  · exact fun k j => whole10 (V m c main_arg11) t k j
  · exact ((rows11 (edgeArr m c) t ht (y 0) (y 1)).trans (edgeArr_apply m c _ _)).symm

/-- An index of the output array is in point `t`'s block iff each coordinate is in the block's range on its axis. -/
private theorem mem_blk (t : Fin cfg0.N) (i : S800000x3.Idx) :
    i ∈ ((cfg0.win 11).blk t).view.set ↔ ∀ a : Fin 2, win0_11.index t a * S4000x3.size a ≤ (i a).val ∧ (i a).val < win0_11.index t a * S4000x3.size a + S4000x3.size a := by
  show i ∈ ((View.whole main_v11).slice (win0_11.rect t)).set ↔ _
  rw [View.set_slice_whole, Rect.mem_set_unit]
  exact Iff.rfl

/-- The 200 blocks tile the array: row `r` lies in the block of point `r / 4000`. -/
private theorem cover (i : S800000x3.Idx) :
    ∃ t : Fin cfg0.N, (cfg0.win 11).flush t = true ∧ i ∈ ((cfg0.win 11).blk t).view.set := by
  have hi0 : (i 0).val < 800000 := (i 0).isLt
  have hi1 : (i 1).val < 3 := (i 1).isLt
  have hlt : (i 0).val / 4000 < cfg0.N := by rw [grid_points]; omega
  refine ⟨⟨(i 0).val / 4000, hlt⟩, flush0_11 _, ?_⟩
  rw [mem_blk]
  obtain ⟨a0, a0', a1, a1', a2, a2', a3, a3', a11, a11'⟩ := idx_moving ⟨(i 0).val / 4000, hlt⟩
  have b0 : win0_11.index ⟨(i 0).val / 4000, hlt⟩ (0 : Fin 2) = (i 0).val / 4000 := a11
  intro a
  match a with
  | ⟨0, _⟩ =>
    show win0_11.index ⟨(i 0).val / 4000, hlt⟩ (0 : Fin 2) * 4000 ≤ (i 0).val ∧ (i 0).val < win0_11.index ⟨(i 0).val / 4000, hlt⟩ (0 : Fin 2) * 4000 + 4000
    omega
  | ⟨1, _⟩ =>
    show win0_11.index ⟨(i 0).val / 4000, hlt⟩ (1 : Fin 2) * 3 ≤ (i 1).val ∧ (i 1).val < win0_11.index ⟨(i 0).val / 4000, hlt⟩ (1 : Fin 2) * 3 + 3
    omega

/-- THE ARRAY after the run is `edgeArr`. -/
private theorem final : (dats m 0 c).arrAt 11 cfg0.N = edgeArr m c :=
  (dats m 0 c).arrAt_eq_of_cover 11 (edgeArr m c) (fun t _ => flushed_eq m c t) cover

/-- The region's output array after the run, entry `(e, q)`: the edge perceptron of row `e` of the per-edge arrays as the
    region finds them (edge `e` lies in block `e / 4000` at row `e % 4000`, and the 200 blocks tile the array). -/
theorem arr11 (e : Fin 800000) (q : Fin 3) :
    (dats m 0 c).arrAt 11 cfg0.N (ix2 e q)
      = Spec.edge (fun k => V m c main_v4 (ix2 e k)) (fun k => V m c main_v5 (ix2 e k)) (fun k => V m c main_arg3 (ix2 e k))
          (V m c main_arg4 (ix2 e q)) (fun k j => V m c main_v6 (ix2 k j)) (fun k j => V m c main_v7 (ix2 k j))
          (fun k j => V m c main_v8 (ix2 k j)) (fun j => V m c main_v9 (ix2 (0 : Fin 1) j)) (fun k j => V m c main_arg9 (ix2 k j))
          (fun j => V m c main_v10 (ix2 (0 : Fin 1) j)) (fun k => V m c main_arg11 (ix2 k (0 : Fin 1))) := by
  refine (congrFun (final m c) (ix2 e q)).trans ?_
  rw [edgeArr_apply]
  unfold rowEdge
  rfl

end Cert.Proof.KArray

end
-- ==== Proof.KRun.lean ====
import proofs.«406178_j12610023981468_1_alg».proof.Proof.Gen.KernelIdeal.Frame
import proofs.«406178_j12610023981468_1_alg».proof.Proof.Spec
import proofs.«406178_j12610023981468_1_alg».proof.Proof.LibGatherScatter
import proofs.«406178_j12610023981468_1_alg».proof.Proof.KPrefix
import proofs.«406178_j12610023981468_1_alg».proof.Proof.KArray
import Idealize.ShloMosaic.Lib.ValueIdx
import Idealize.ShloMosaic.Lib.Pipeline.Value
import Idealize.ShloMosaic.Lib.StableHlo.Run

noncomputable section

namespace Cert.Proof.KRun

open Idealize.ShloMosaic Idealize.ShloMosaic.TcCoe Idealize.SL.Sem Idealize.ShloMosaic.ValueIdx Cert.KernelIdeal Cert.KernelIdeal.Gen Cert.Proof

open scoped BigOperators

/-- The operations after the region as one function of the four arrays they read. -/
private def tailF (x1 : FVec Ideal S50000x3 .f32) (v1 : IVec S800000 32) (a11 : FVec Ideal S800000x3 .f32)
    (fl : FVec Ideal S50000x1 .f32) : FVec Ideal S50000x3 .f32 :=
  mulf (addf x1 (Host.scatterAdd scatter_S50000x3_S800000x1_S800000x3_1_0_0_1
      (broadcastInDim S50000x3 ![] bcast_S_S50000x3 (constant (F := Ideal) S_ .f32 0x00000000#32))
      (broadcastInDim S800000x1 ![0] bcast_S800000_S800000x1_0 v1) a11))
    (broadcastInDim S50000x3 ![0, 1] bcast_S50000x1_S50000x3_0_1 fl)

/-- The tail at node `i`, coordinate `q`: the node's coordinate plus (zero plus the sum of the rows of the edges whose source
    word, read signed, is `i`), times the node's flag. -/
private theorem tailF_apply (x1 : FVec Ideal S50000x3 .f32) (v1 : IVec S800000 32) (a11 : FVec Ideal S800000x3 .f32)
    (fl : FVec Ideal S50000x1 .f32) (i : Fin 50000) (q : Fin 3) :
    tailF x1 v1 a11 fl (ix2 i q)
      = (x1 (ix2 i q) + (Spec.zero + ∑ e ∈ Finset.univ.filter (fun e : Fin 800000 => (v1 (ix1 e)).toInt = (i.val : Int)),
          a11 (ix2 e q))) * fl (ix2 i (0 : Fin 1)) := by
  unfold tailF
  rw [mulf_apply, addf_apply]
  have hs : scatter_S50000x3_S800000x1_S800000x3_1_0_0_1
      = GS.scatD 50000 800000 3 scatter_S50000x3_S800000x1_S800000x3_1_0_0_1_wf := rfl
  rw [hs, GS.scatterAdd_scatD_apply]
  have hz : broadcastInDim S50000x3 ![] bcast_S_S50000x3 (constant (F := Ideal) S_ .f32 0x00000000#32) (ix2 i q) = Spec.zero := rfl
  have hfl : broadcastInDim S50000x3 ![0, 1] bcast_S50000x1_S50000x3_0_1 fl (ix2 i q) = fl (ix2 i (0 : Fin 1)) :=
    broadcastInDim_apply _ _ _ _ _ (fun a => match a with | ⟨0, _⟩ => rfl | ⟨1, _⟩ => rfl)
  have hv : ∀ e : Fin 800000, broadcastInDim S800000x1 ![0] bcast_S800000_S800000x1_0 v1 (ix2 e (0 : Fin 1)) = v1 (ix1 e) :=
    fun e => broadcastInDim_apply _ _ _ _ _ (fun a => match a with | ⟨0, _⟩ => rfl)
  rw [hz, hfl]
  simp only [hv]

/-- The tail is the layer's node update, given that the index vector is row 0 of the edge index and that the region's
    output rows are the edges' translations. -/
private theorem tailF_eq_layerOf (h : FVec Ideal S50000x128 .f32) (x : FVec Ideal S50000x3 .f32) (ei : IVec S2x800000 32)
    (ea : FVec Ideal S800000x16 .f32) (cd : FVec Ideal S800000x3 .f32) (fl : FVec Ideal S50000x1 .f32)
    (W1 : FVec Ideal S272x128 .f32) (b1 : FVec Ideal S128 .f32) (W2 : FVec Ideal S128x128 .f32) (b2 : FVec Ideal S128 .f32)
    (W3 : FVec Ideal S128x1 .f32) (v1 : IVec S800000 32) (a11 : FVec Ideal S800000x3 .f32)
    (hv1 : ∀ e : Fin 800000, v1 (ix1 e) = ei (ix2 (0 : Fin 2) e))
    (ha : ∀ (e : Fin 800000) (q : Fin 3), a11 (ix2 e q)
      = Spec.trans (Spec.rowFill Spec.nan) (Spec.m2 h) (Spec.m2 ei) (Spec.m2 ea) (Spec.m2 cd) (Spec.m2 W1) (Spec.m1 b1)
          (Spec.m2 W2) (Spec.m1 b2) (Spec.col0 W3) e q) :
    tailF x v1 a11 fl = Spec.layerOf (Spec.rowFill Spec.nan) h x ei ea cd fl W1 b1 W2 b2 W3 := by
  funext i
  obtain ⟨a, b, rfl⟩ : ∃ (a : Fin 50000) (b : Fin 3), i = ix2 a b := ⟨i 0, i 1, eq_ix2 i⟩
  rw [tailF_apply]
  simp only [hv1, ha]
  rfl

variable (m : (ℓ : Loc nD τ sig) → Buf (Elt Ideal) ℓ) (ρ : Dev nD → PrngReg)

section AtCore
variable (c : Dev nD)

/-- The pipeline's arrays after the region, read at a window's array reference. -/
private theorem wa_arr (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

private theorem wa_v11 : Pipeline.withArrays (cfgs 0).spec c (V0 m c) (fun w => (dats m 0 c).arrAt w (cfgs 0).N) (Proc.devRef .tc main_v11)
    = (dats m 0 c).arrAt 11 cfg0.N :=
  wa_arr m c 11

/-- The result reference after the tail: the tail's function of the three arrays the region leaves alone and the region's output. -/
private theorem tail_eq :
    Pipeline.afterTail₀ cfgs (dats m) 0 (V0 m) [hostOps1] c main_v17
      = tailF (V m c main_arg1) (V m c main_v1) ((dats m 0 c).arrAt 11 cfg0.N) (V m c main_arg5) := by
  unfold Pipeline.afterTail₀
  show StableHlo.after hostOps1 _ (Proc.devRef .tc main_v17) = _
  after_results
  rw [Pipeline.withArrays_of_ne _ c (V0 m c) _ main_arg1 (by exact (by decide : ∀ w, Pipeline.arrRef spec0 w ≠ main_arg1)),
    Pipeline.withArrays_of_ne _ c (V0 m c) _ main_v1 (by exact (by decide : ∀ w, Pipeline.arrRef spec0 w ≠ main_v1)),
    Pipeline.withArrays_of_ne _ c (V0 m c) _ main_arg5 (by exact (by decide : ∀ w, Pipeline.arrRef spec0 w ≠ main_arg5)),
    wa_v11 m c]
  rfl

/-- The region's output rows are the edges' translations with rows fetched by wrap-then-fill. -/
private theorem arr11_trans (e : Fin 800000) (q : Fin 3) :
    (dats m 0 c).arrAt 11 cfg0.N (ix2 e q)
      = Spec.trans (Spec.rowFill Spec.nan) (Spec.m2 (m ((c.tc : Thread nD τ).loc main_arg0))) (Spec.m2 (m ((c.tc : Thread nD τ).loc main_arg2)))
          (Spec.m2 (m ((c.tc : Thread nD τ).loc main_arg3))) (Spec.m2 (m ((c.tc : Thread nD τ).loc main_arg4)))
          (Spec.m2 (m ((c.tc : Thread nD τ).loc main_arg7))) (Spec.m1 (m ((c.tc : Thread nD τ).loc main_arg8)))
          (Spec.m2 (m ((c.tc : Thread nD τ).loc main_arg9))) (Spec.m1 (m ((c.tc : Thread nD τ).loc main_arg10)))
          (Spec.col0 (m ((c.tc : Thread nD τ).loc main_arg11))) e q := by
  have h4 : (fun k => V m c main_v4 (ix2 e k))
      = Spec.rowFill Spec.nan (Spec.m2 (m ((c.tc : Thread nD τ).loc main_arg0))) (Spec.m2 (m ((c.tc : Thread nD τ).loc main_arg2)) 0 e) :=
    funext fun k => KPrefix.V_v4 m c e k
  have h5 : (fun k => V m c main_v5 (ix2 e k))
      = Spec.rowFill Spec.nan (Spec.m2 (m ((c.tc : Thread nD τ).loc main_arg0))) (Spec.m2 (m ((c.tc : Thread nD τ).loc main_arg2)) 1 e) :=
    funext fun k => KPrefix.V_v5 m c e k
  have h6 : (fun k j => V m c main_v6 (ix2 k j)) = Spec.W1r (Spec.m2 (m ((c.tc : Thread nD τ).loc main_arg7))) :=
    funext fun k => funext fun j => KPrefix.V_v6 m c k j
  have h7 : (fun k j => V m c main_v7 (ix2 k j)) = Spec.W1c (Spec.m2 (m ((c.tc : Thread nD τ).loc main_arg7))) :=
    funext fun k => funext fun j => KPrefix.V_v7 m c k j
  have h8 : (fun k j => V m c main_v8 (ix2 k j)) = Spec.W1e (Spec.m2 (m ((c.tc : Thread nD τ).loc main_arg7))) :=
    funext fun k => funext fun j => KPrefix.V_v8 m c k j
  have h9 : (fun j => V m c main_v9 (ix2 (0 : Fin 1) j)) = Spec.m1 (m ((c.tc : Thread nD τ).loc main_arg8)) :=
    funext fun j => KPrefix.V_v9 m c j
  have h10 : (fun j => V m c main_v10 (ix2 (0 : Fin 1) j)) = Spec.m1 (m ((c.tc : Thread nD τ).loc main_arg10)) :=
    funext fun j => KPrefix.V_v10 m c j
  rw [KArray.arr11, h4, h5, h6, h7, h8, h9, h10, V_main_arg3 m c, V_main_arg4 m c, V_main_arg9 m c, V_main_arg11 m c]
  rfl

private theorem result_eq :
    tailF (V m c main_arg1) (V m c main_v1) ((dats m 0 c).arrAt 11 cfg0.N) (V m c main_arg5)
      = Spec.layerOf (Spec.rowFill Spec.nan) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) := by
  rw [V_main_arg1 m c, V_main_arg5 m c]
  exact tailF_eq_layerOf _ _ _ _ _ _ _ _ _ _ _ (V m c main_v1) ((dats m 0 c).arrAt 11 cfg0.N) (KPrefix.V_v1 m c) (arr11_trans m c)

end AtCore

/-- THE KERNEL PROGRAM'S RUN WITH ITS RESULT NAMED: every weakly fair execution terminates, the result array holds the layer
    with rows fetched by wrap-then-fill, as a function of the argument arrays, and the argument arrays end unchanged. -/
theorem run : θ_run (defs (F := Ideal)) (onTc (τ := τ) (main (F := Ideal))) ⟨m, fun _ => 0, ρ⟩ (fun r => ∀ c : Dev nD,
      r.2.mem ((c.tc : Thread nD τ).loc main_v17) = Spec.layerOf (Spec.rowFill Spec.nan) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  exact (θ_run defs _ _).mono (fun r h c => ⟨((h c).2 main_v17 (Pipeline.mem_restRefs_of main_v17 (by decide) (by decide))).trans ((tail_eq m c).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c))),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c)))⟩) (run_main m ρ)

end Cert.Proof.KRun

end
-- ==== Proof.lean ====
/-
  One coordinate-update layer of an equivariant graph network, kernel against reference, over the extended reals.

  Both programs compute, for every node `i` and coordinate `q`, `(x i q + Σ_{e : source e = i} t e q) · flag i`, where the
  translation of edge `e` is `t e q = cd e q · tanh(silu(silu([h(source e), h(target e), ea e]·W1 + b1)·W2 + b2)·W3) · 15`
  (Proof/Spec.lean). They differ in three ways, none of which changes the value at the ideal instance:
  * the kernel multiplies the three row-blocks of `W1` separately (128 + 128 + 16 rows) and adds the products, the
    reference multiplies the concatenated 272 numbers at once: a sum over 272 indices split into three (Proof/RefSide.lean);
  * the kernel rounds the matmul operands to a shorter format first: a change of format is the identity on the
    extended reals; its logistic is one operation where the reference writes `1 / (1 + e^(-z))`: the same function;
  * the kernel fetches a node's feature row for an index word by wrapping a negative word and FILLING a row whose
    wrapped word is out of range; the reference wraps and CLAMPS. An edge whose SOURCE word names no node contributes to
    no node in either program (the accumulation drops it), and one whose source word is a node's number is fetched alike
    by both; for the TARGET word the precondition's added conjunct says it lies in `[-50000, 50000)`, where both fetches
    agree (Proof/Spec.lean `layer_fill_eq_clamp`, Proof/PreCol.lean).
  The kernel program's run with its result named is Proof/KRun.lean (over the generated frame run: the per-edge blocks of
  the region in Proof/KArray.lean and Proof/KPayload.lean, the arrays the host operations before the region leave in
  Proof/KPrefix.lean); the reference's is its generated run, read by Proof/RefSide.lean.
-/
import proofs.«406178_j12610023981468_1_alg».proof.Defs
import proofs.«406178_j12610023981468_1_alg».proof.Proof.Gen.Kernel
import proofs.«406178_j12610023981468_1_alg».proof.Proof.Gen.Kernel.Skeleton
import proofs.«406178_j12610023981468_1_alg».proof.Proof.Gen.Kernel.Launch
import proofs.«406178_j12610023981468_1_alg».proof.Proof.Gen.Kernel.Points
import proofs.«406178_j12610023981468_1_alg».proof.Proof.Gen.Kernel.Frame
import proofs.«406178_j12610023981468_1_alg».proof.Proof.Gen.KernelIdeal
import proofs.«406178_j12610023981468_1_alg».proof.Proof.Gen.KernelIdeal.Skeleton
import proofs.«406178_j12610023981468_1_alg».proof.Proof.Gen.KernelIdeal.Launch
import proofs.«406178_j12610023981468_1_alg».proof.Proof.Gen.KernelIdeal.Points
import proofs.«406178_j12610023981468_1_alg».proof.Proof.Gen.KernelIdeal.Frame
import proofs.«406178_j12610023981468_1_alg».proof.Proof.Gen.ReferenceIdeal
import proofs.«406178_j12610023981468_1_alg».proof.Proof.Gen.ReferenceIdeal.Run
import proofs.«406178_j12610023981468_1_alg».proof.Proof.Gen.ReferenceIdeal.Read
import proofs.«406178_j12610023981468_1_alg».proof.Proof.Gen.Pre_finite_inputs
import proofs.«406178_j12610023981468_1_alg».proof.Proof.Spec
import proofs.«406178_j12610023981468_1_alg».proof.Proof.PreCol
import proofs.«406178_j12610023981468_1_alg».proof.Proof.RefSide
import proofs.«406178_j12610023981468_1_alg».proof.Proof.KRun
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the clamping layer of the arguments: the kernel
    with the filling layer, which under the precondition's range of the target words is the clamping one; the reference
    with the clamping layer outright. -/
theorem algebraic : Cert.algebraic_KernelIdeal_ReferenceIdeal := by
  intro m ρ m' ρ' hpre hagree
  refine ⟨fun c => Spec.layerOf Spec.rowClamp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.Proof.KRun.run m ρ)
    exact Spec.layerOf_fill_eq_clamp _ _ _ _ _ _ _ _ _ _ _ (Cert.Proof.PreCol.col_range _ _ _ _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, Cert.Proof.RefSide.ref_eq, (hagree c).1, (hagree c).2.1, (hagree c).2.2.1,
      (hagree c).2.2.2.1, (hagree c).2.2.2.2.1, (hagree c).2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
